-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_5316911940649_5316911983139663491615228241121378304" .f32 0x179ABE15#32 ((5316911940649 / 5316911983139663491615228241121378304 : ℝ) : EReal)
  ∧ IdealRules.named_const.Statement Cert.KernelIdeal.κ "fold_c_5316911940649_5316911983139663491615228241121378304" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x100000 : Shape := ⟨2, ![512, 100000]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_

variable [Facts]

def fn {F : FTy → Type} [FloatOps F] (main_arg0 : FVec F S1024x512 .f32) (main_arg1 : FVec F S512x100000 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x100000 .f32 := Host.absf main_arg1
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  main_v8
-- ==== Kernel.lean ====
abbrev S1024x512 : Shape := ⟨2, ![1024, 512]⟩
abbrev S512x100000 : Shape := ⟨2, ![512, 100000]⟩
abbrev S1024 : Shape := ⟨1, ![1024]⟩
abbrev S1024x100000 : Shape := ⟨2, ![1024, 100000]⟩
abbrev S2x1024x1 : Shape := ⟨3, ![2, 1024, 1]⟩
abbrev S512x1024 : Shape := ⟨2, ![512, 1024]⟩
abbrev S1024x1024 : Shape := ⟨2, ![1024, 1024]⟩
abbrev S1x1024x1 : Shape := ⟨3, ![1, 1024, 1]⟩
abbrev S1024x1 : Shape := ⟨2, ![1024, 1]⟩
abbrev S1x1024 : Shape := ⟨2, ![1, 1024]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 54
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x100000, .f32⟩
  | .hbm, ⟨2, _⟩ => ⟨S1024, .i32⟩
  | .hbm, ⟨3, _⟩ => ⟨S1024x100000, .f32⟩
  | .hbm, ⟨4, _⟩ => ⟨S2x1024x1, .f32⟩
  | .hbm, ⟨5, _⟩ => ⟨S1x1024x1, .f32⟩
  | .hbm, ⟨6, _⟩ => ⟨S1024, .f32⟩
  | .hbm, ⟨7, _⟩ => ⟨S1x1024x1, .f32⟩
  | .hbm, ⟨8, _⟩ => ⟨S1024, .f32⟩
  | .hbm, ⟨9, _⟩ => ⟨S1024, .f32⟩
  | .hbm, ⟨10, _⟩ => ⟨S1024x1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S_, .i32⟩
  | .hbm, ⟨15, _⟩ => ⟨S1024x1, .i32⟩
  | .hbm, ⟨16, _⟩ => ⟨S1024x1, .i32⟩
  | .hbm, ⟨17, _⟩ => ⟨S1024x1, .i32⟩
  | .hbm, ⟨18, _⟩ => ⟨S1024x1x1, .i32⟩
  | .hbm, ⟨19, _⟩ => ⟨S1, .i32⟩
  | .hbm, ⟨20, _⟩ => ⟨S_, .i32⟩
  | .hbm, ⟨21, _⟩ => ⟨S1024x1x1, .i32⟩
  | .hbm, ⟨22, _⟩ => ⟨S1024x1x1, .i1⟩
  | .hbm, ⟨23, _⟩ => ⟨S1x1x1, .i32⟩
  | .hbm, ⟨24, _⟩ => ⟨S1024x1x1, .i32⟩
  | .hbm, ⟨25, _⟩ => ⟨S1024x1x1, .i1⟩
  | .hbm, ⟨26, _⟩ => ⟨S1024x1x1, .i1⟩
  | .hbm, ⟨27, _⟩ => ⟨S_, .i1⟩
  | .hbm, ⟨28, _⟩ => ⟨S1024x1, .i1⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1024x512, .f32⟩
  | .local _ .vmem, ⟨1, _⟩ => ⟨S512x1024, .f32⟩
  | .local _ .vmem, ⟨2, _⟩ => ⟨S512x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024x1, .f32⟩
  | .local _ .vmem, ⟨6, _⟩ => ⟨S1x1024x1, .f32⟩
  | .local _ .vmem, ⟨7, _⟩ => ⟨S1024x1, .f32⟩
  | .local _ .vmem, ⟨8, _⟩ => ⟨S1024x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 49], ![false, false]⟩

def k0_cond3 (i : grid0.Coords) : BitVec 1 :=
  let arg1 : BitVec 32 := BitVec.ofNat 32 (i 1).val
  let c48_i32 : BitVec 32 := 48#32
  let v23 : BitVec 1 := Scalar.cmpi .eq arg1 c48_i32
  let v27 : BitVec 32 := Scalar.extui v23
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  iota_S1024x1024_d1_w32 : S1024x1024.Iotas .tc 32 [1]
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  shapeCasts_S1024x1_S1024 : S1024x1.ShapeCasts S1024
  bcast_S_S1024 : S_.BroadcastsInDim S1024 (![] : Fin 0 → Fin S1024.rank)
  reducesTo_S1024_S_d0 : S1024.ReducesTo [0] S_
  dot_S1024x512_S512x1024_S1024x1024_1_0_0_1_n_n_wf : DotDims.WF S1024x512 S512x1024 S1024x1024 [1] [0] [0] [1] [] []
  gather_S1024x100000_S1024x1x1_S1024x1_n_1_0_0_1_2_11_wf : GatherDims.WF S1024x100000 S1024x1x1 S1024x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1024.size a < S512x100000.size a
  hwx0_1 : ∀ i : grid0.Coords, EltTy.bits .f32 = 32 ∨ (Rect.unit (s := S512x100000) (fun a => cc0_transform_1 i a * S512x1024.size a) (fun a => (Pipeline.Clip.of (cc0_transform_1 i a) (S512x1024.size a) (S512x100000.size a)).extent (S512x1024.size a)) fun a => Pipeline.Clip.inb (Pipeline.Clip.ok_of (hstart0_1 i a))).WholeWords (EltTy.packing .f32)
  hwxs0_1 : ∀ i : grid0.Coords, EltTy.bits .f32 = 32 ∨ (Rect.unit (s := S512x1024) (fun _ => 0) (fun a => (Pipeline.Clip.of (cc0_transform_1 i a) (S512x1024.size a) (S512x100000.size a)).extent (S512x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S1024x100000.size a
  hwx0_2 : ∀ i : grid0.Coords, EltTy.bits .f32 = 32 ∨ (Rect.unit (s := S1024x100000) (fun a => cc0_transform_2 i a * S1024x1024.size a) (fun a => (Pipeline.Clip.of (cc0_transform_2 i a) (S1024x1024.size a) (S1024x100000.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S1024x100000.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0_0) S1024x1024.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S512x100000 : Shape := ⟨2, ![512, 100000]⟩
abbrev S1024 : Shape := ⟨1, ![1024]⟩
abbrev S_ : Shape := ⟨0, ![]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x100000, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x512, .f32⟩
  | .hbm, ⟨13, _⟩ => ⟨S1024x512, .f32⟩
  | .hbm, ⟨14, _⟩ => ⟨S512x100000, .f32⟩
  | .hbm, ⟨15, _⟩ => ⟨S_, .f32⟩
  | .hbm, ⟨16, _⟩ => ⟨S100000, .f32⟩
  | .hbm, ⟨17, _⟩ => ⟨S1x100000, .f32⟩
  | .hbm, ⟨18, _⟩ => ⟨S1x100000, .f32⟩
  | .hbm, ⟨19, _⟩ => ⟨S_, .f32⟩
  | .hbm, ⟨20, _⟩ => ⟨S_, .f32⟩
  | .hbm, ⟨21, _⟩ => ⟨S1x100000, .f32⟩
  | .hbm, ⟨22, _⟩ => ⟨S1x100000, .f32⟩
  | .hbm, ⟨23, _⟩ => ⟨S512x100000, .f32⟩
  | .hbm, ⟨24, _⟩ => ⟨S512x100000, .f32⟩
  | .hbm, ⟨25, _⟩ => ⟨S1024x100000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1024x100000, .f32⟩
  | .hbm, ⟨30, _⟩ => ⟨S1024x100000, .f32⟩
  | .hbm, ⟨31, _⟩ => ⟨S_, .f32⟩
  | .hbm, ⟨32, _⟩ => ⟨S1024x100000, .f32⟩
  | .hbm, ⟨33, _⟩ => ⟨S1024x100000, .f32⟩
  | .hbm, ⟨34, _⟩ => ⟨S1024x1, .i32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x1x1, .i32⟩
  | .hbm, ⟨43, _⟩ => ⟨S1, .i32⟩
  | .hbm, ⟨44, _⟩ => ⟨S_, .i32⟩
  | .hbm, ⟨45, _⟩ => ⟨S1024x1x1, .i32⟩
  | .hbm, ⟨46, _⟩ => ⟨S1024x1x1, .i1⟩
  | .hbm, ⟨47, _⟩ => ⟨S1x1x1, .i32⟩
  | .hbm, ⟨48, _⟩ => ⟨S1024x1x1, .i32⟩
  | .hbm, ⟨49, _⟩ => ⟨S1024x1x1, .i1⟩
  | .hbm, ⟨50, _⟩ => ⟨S1024x1x1, .i1⟩
  | .hbm, ⟨51, _⟩ => ⟨S_, .i1⟩
  | .hbm, ⟨52, _⟩ => ⟨S1024x1, .i1⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024x100000, .f32⟩
  | .hbm, ⟨66, _⟩ => ⟨S1024x100000, .f32⟩
  | .hbm, ⟨67, _⟩ => ⟨S1024x100000, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_cst_2 : Ref sig .tc := ⟨.hbm, 27, rfl⟩
abbrev main_call4_v0 : Ref sig .tc := ⟨.hbm, 28, rfl⟩
abbrev main_call4_v1 : Ref sig .tc := ⟨.hbm, 29, rfl⟩
abbrev main_call4_v2 : Ref sig .tc := ⟨.hbm, 30, rfl⟩
abbrev main_call4_v3 : Ref sig .tc := ⟨.hbm, 31, rfl⟩
abbrev main_call4_v4 : Ref sig .tc := ⟨.hbm, 32, rfl⟩
abbrev main_v9 : Ref sig .tc := ⟨.hbm, 33, rfl⟩
abbrev main_v10 : Ref sig .tc := ⟨.hbm, 34, rfl⟩
abbrev main_call5_c : Ref sig .tc := ⟨.hbm, 35, rfl⟩
abbrev main_call5_v0 : Ref sig .tc := ⟨.hbm, 36, rfl⟩
abbrev main_call5_v1 : Ref sig .tc := ⟨.hbm, 37, rfl⟩
abbrev main_call5_c_0 : Ref sig .tc := ⟨.hbm, 38, rfl⟩
abbrev main_call5_v2 : Ref sig .tc := ⟨.hbm, 39, rfl⟩
abbrev main_call5_v3 : Ref sig .tc := ⟨.hbm, 40, rfl⟩
abbrev main_call5_v4 : Ref sig .tc := ⟨.hbm, 41, rfl⟩
abbrev main_call5_v5 : Ref sig .tc := ⟨.hbm, 42, rfl⟩
abbrev main_call5_c_1 : Ref sig .tc := ⟨.hbm, 43, rfl⟩
abbrev main_call5_c_2 : Ref sig .tc := ⟨.hbm, 44, rfl⟩
abbrev main_call5_v6 : Ref sig .tc := ⟨.hbm, 45, rfl⟩
abbrev main_call5_v7 : Ref sig .tc := ⟨.hbm, 46, rfl⟩
abbrev main_call5_v8 : Ref sig .tc := ⟨.hbm, 47, rfl⟩
abbrev main_call5_v9 : Ref sig .tc := ⟨.hbm, 48, rfl⟩
abbrev main_call5_v10 : Ref sig .tc := ⟨.hbm, 49, rfl⟩
abbrev main_call5_v11 : Ref sig .tc := ⟨.hbm, 50, rfl⟩
abbrev main_call5_c_3 : Ref sig .tc := ⟨.hbm, 51, rfl⟩
abbrev main_call5_v12 : Ref sig .tc := ⟨.hbm, 52, rfl⟩
abbrev main_call5_v13 : Ref sig .tc := ⟨.hbm, 53, rfl⟩
abbrev main_call5_cst : Ref sig .tc := ⟨.hbm, 54, rfl⟩
abbrev main_call5_v14 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_cst_4 : Ref sig .tc := ⟨.hbm, 61, rfl⟩
abbrev main_v15 : Ref sig .tc := ⟨.hbm, 62, rfl⟩
abbrev main_v16 : Ref sig .tc := ⟨.hbm, 63, rfl⟩
abbrev main_cst_5 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_6 : Ref sig .tc := ⟨.hbm, 68, rfl⟩
abbrev main_v20 : Ref sig .tc := ⟨.hbm, 69, rfl⟩
abbrev main_cst_7 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_8 : Ref sig .tc := ⟨.hbm, 79, rfl⟩
abbrev main_v29 : Ref sig .tc := ⟨.hbm, 80, rfl⟩
abbrev main_cst_9 : Ref sig .tc := ⟨.hbm, 81, rfl⟩
abbrev main_v30 : Ref sig .tc := ⟨.hbm, 82, rfl⟩
abbrev main_v31 : Ref sig .tc := ⟨.hbm, 83, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S512x100000_S100000_d0 : S512x100000.ReducesTo [0] S100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S512x100000_0_1 : S1x100000.BroadcastsInDim S512x100000 (![0, 1] : Fin 2 → Fin S512x100000.rank)
  bcast_S_S1024x100000 : S_.BroadcastsInDim S1024x100000 (![] : Fin 0 → Fin S1024x100000.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S_S1024 : S_.BroadcastsInDim S1024 (![] : Fin 0 → Fin S1024.rank)
  reducesTo_S1024x100000_S1024_d1 : S1024x100000.ReducesTo [1] S1024
  reducesTo_S1024_S_d0 : S1024.ReducesTo [0] S_
  dot_S1024x512_S512x100000_S1024x100000_1_0_0_1_n_n_wf : DotDims.WF S1024x512 S512x100000 S1024x100000 [1] [0] [0] [1] [] []
  gather_S1024x100000_S1024x1x1_S1024x1_n_1_0_0_1_2_11_wf : GatherDims.WF S1024x100000 S1024x1x1 S1024x1 [] [1] [0] [1] [0] 2 ![1, 1]

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.K.Shared.lean ====
/-
  The kernel body of the margin-softmax head runs in one of three ways at a grid point (h, j) of the 2 × 49 grid,
  by the column-tile counter j alone: at j = 0 the rows of x are normalised into the second scratch buffer and the
  running row sums in the first are reset; at every j < 48 the tile's row sums are added to the running sums; at
  j = 48 the masked row sums are added and the running sums are copied to the partial-sum output block. This module
  states the three branch conditions over the grid in closed form, says where the partial-sum window is idle, and
  names the memrefs the body is called with.
-/
import proofs.«402459_j22746146800347_3_alg».proof.Proof.Gen.Kernel.Frame
import proofs.«402459_j22746146800347_3_alg».proof.Proof.Gen.Kernel.Skeleton
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch conditions over the grid -/

/-- The first conditional: the column-tile counter is zero. -/
abbrev condReset (i : grid0.Coords) : Prop :=
  (Scalar.cmpi .ne (Scalar.extui (Scalar.cmpi .eq (BitVec.ofNat 32 (i 1).val) 0#32)) 0#32) = 1#1
/-- The second conditional: the column-tile counter is not the last, 48. -/
abbrev condAcc (i : grid0.Coords) : Prop :=
  (Scalar.cmpi .ne (Scalar.extui (Scalar.xori (Scalar.cmpi .eq (BitVec.ofNat 32 (i 1).val) 48#32) 1#1)) 0#32) = 1#1
/-- The third conditional: the column-tile counter is the last. -/
abbrev condLast (i : grid0.Coords) : Prop := k0_cond3 i = 1#1

theorem hcondReset : ∀ t : Fin cfg0.N, condReset (grid0.coords t) ↔ t.val % 49 = 0 :=
  (by decide +kernel : ∀ t : Fin grid0.N, condReset (grid0.coords t) ↔ t.val % 49 = 0)
theorem hcondAcc : ∀ t : Fin cfg0.N, condAcc (grid0.coords t) ↔ ¬ t.val % 49 = 48 :=
  (by decide +kernel : ∀ t : Fin grid0.N, condAcc (grid0.coords t) ↔ ¬ t.val % 49 = 48)
theorem hcondLast : ∀ t : Fin cfg0.N, condLast (grid0.coords t) ↔ t.val % 49 = 48 :=
  (by decide +kernel : ∀ t : Fin grid0.N, condLast (grid0.coords t) ↔ t.val % 49 = 48)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The partial-sum window is idle, and not written back, wherever the counter is not the last. -/
theorem idle_3 : ∀ t : Fin cfg0.N, ¬ t.val % 49 = 48 → cfg0.idle 3 (grid0.coords t) = true := by decide +kernel
theorem noFlush_3 : ∀ t : Fin cfg0.N, ¬ t.val % 49 = 48 → (cfg0.win 3).flush t = false := by decide +kernel
theorem live_3 : ∀ t : Fin cfg0.N, t.val % 49 = 48 → cfg0.idle 3 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1 .f32 := win0_3.stage (cfg0.slots t 3)
abbrev hs3 (t : Fin cfg0.N) : (ms3 t).IsWhole := hstage0_3 ((cfg0.slots t 3).cast nbuf0_3)
/-- The running row sums' scratch buffer and the normalised rows' scratch buffer. -/
abbrev scSum : Memref sig .tc .vmem S1024x1 .f32 := Memref.whole cc0_scratch0
abbrev scXn : Memref sig .tc .vmem S1024x512 .bf16 := Memref.whole cc0_scratch1

/-- What the region's invariant holds besides the windows: the two scratch buffers at some contents and the
    generator register at some state. -/
theorem PhiA_eq (c : Dev nD) :
    (Pipeline.ΦA spec0 c : sProp 𝕄)
      = iprop(iprop((∃ d, owns (c : Thread nD τ) scSum fullShare d) ∗ (∃ d, owns (c : Thread nD τ) scXn fullShare d)) ∗ (∃ r, prngReg c r)) := by
  unfold Pipeline.ΦA; rw [scopedRest0_eq]; simp only [scSum, scXn, owns_whole]; try rfl

end Cert.Kernel.Body

end
-- ==== Proof.K.RunFirst.lean ====
/-
  The body at a grid point whose column-tile counter is zero: the rows of x are normalised (each row times the
  reciprocal square root of the larger of its sum of squares and a small positive constant) into their scratch buffer,
  the running row sums are reset to zero, and then the point goes on as every other: the tile's clipped cosine
  block is stored and its row sums of exp(30·cos) are added to the (zero) running sums.
-/
import proofs.«402459_j22746146800347_3_alg».proof.Proof.K.Shared
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores of the body at such a point, as pieces for the cosine window's buffer, the running sums and the
    normalised rows, with the proof that from whole memrefs at the given contents (the scratch buffers at anything)
    the body runs to the continuation with those pieces written and everything else as it was. -/
noncomputable def runFirst (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) :
    Σ' (L2 : List (View.Piece (Elt F) S1024x1024 .f32)) (LS : List (View.Piece (Elt F) S1024x1 .f32)), { LX : List (View.Piece (Elt F) S1024x512 .bf16) //
      ∀ (xi : Vec F S1x1024x1 .f32) (E : Set ℕ) (K : PUnit → sProp 𝕄),
        iprop(owns (c : Thread nD τ) arg2 fullShare x0 ∗ owns (c : Thread nD τ) arg3 fullShare w ∗ (∃ d, owns (c : Thread nD τ) arg4 fullShare d)
            ∗ owns (c : Thread nD τ) arg5 fullShare xi ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ owns (c : Thread nD τ) arg5 fullShare xi
                ∗ (∃ f, arg6.view.loc (c : Thread nD τ) ↦[arg6.view.set]{fullShare} arg6.view.writes (Elt F) f LS)
                ∗ (∃ f, arg7.view.loc (c : Thread nD τ) ↦[arg7.view.set]{fullShare} arg7.view.writes (Elt F) f LX)) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, ?_, fun xi E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%f3, %hf3, H3⟩, ⟨%ds, %fs, -, HS⟩, ⟨%dx, %fx, -, HX⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS]
    · iexists _; iexact HS
    · iexists _; iexact HX

end Cert.Kernel.Body

end
-- ==== Proof.K.RunMid.lean ====
/-
  The body at a grid point whose column-tile counter is neither the first nor the last: the normalised rows are
  read from their scratch buffer, the tile's clipped cosine block is stored to the cosine window's buffer, and the
  tile's row sums of exp(30·cos) are added to the running sums. The partial-sum window's buffer is not touched.
-/
import proofs.«402459_j22746146800347_3_alg».proof.Proof.K.Shared
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores of the body at such a point, as pieces for the cosine window's buffer and for the running sums,
    with the proof that from whole memrefs at the given contents the body runs to the continuation with those
    pieces written and everything else as it was. -/
noncomputable def runMid (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) :
    Σ' (L2 : List (View.Piece (Elt F) S1024x1024 .f32)), { LS : List (View.Piece (Elt F) S1024x1 .f32) //
      ∀ (xi : Vec F S1x1024x1 .f32) (E : Set ℕ) (K : PUnit → sProp 𝕄),
        iprop(owns (c : Thread nD τ) arg2 fullShare x0 ∗ owns (c : Thread nD τ) arg3 fullShare w ∗ (∃ d, owns (c : Thread nD τ) arg4 fullShare d)
            ∗ owns (c : Thread nD τ) arg5 fullShare xi ∗ owns (c : Thread nD τ) arg6 fullShare ls ∗ owns (c : Thread nD τ) arg7 fullShare xn
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ owns (c : Thread nD τ) arg5 fullShare xi
                ∗ (∃ f, arg6.view.loc (c : Thread nD τ) ↦[arg6.view.set]{fullShare} arg6.view.writes (Elt F) f LS)
                ∗ owns (c : Thread nD τ) arg7 fullShare xn) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, fun xi E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%f3, %hf3, H3⟩, ⟨%fs, %hfs, HS⟩, ⟨%fx, %hfx, HX⟩, Hk⟩
    obtain rfl := harg2.eq_unread hf0; obtain rfl := harg3.eq_unread hf1; obtain rfl := harg5.eq_unread hf3
    obtain rfl := harg6.eq_unread hfs; obtain rfl := harg7.eq_unread hfx
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS]
    · iexists _; iexact HS
    · iexists _; isplitr; · ipureintro; exact harg7.read_unread _
      iexact HX

end Cert.Kernel.Body

end
-- ==== Proof.K.RunLast.lean ====
/-
  The body at a grid point whose column-tile counter is the last, 48: the tile's clipped cosine block is stored;
  the row sums of exp(30·cos), with the columns at or past column 100000 of the whole matrix replaced by zero, are
  added to the running sums; and the running sums are copied to the partial-sum window's buffer.
-/
import proofs.«402459_j22746146800347_3_alg».proof.Proof.K.Shared
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores of the body at such a point, as pieces for the cosine window's buffer, the partial-sum window's
    buffer and the running sums, with the proof that from whole memrefs at the given contents the body runs to the
    continuation with those pieces written and everything else as it was. -/
noncomputable def runLast (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) :
    Σ' (L2 : List (View.Piece (Elt F) S1024x1024 .f32)) (L3 : List (View.Piece (Elt F) S1x1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare w ∗ (∃ d, owns (c : Thread nD τ) arg4 fullShare d)
            ∗ (∃ d, owns (c : Thread nD τ) arg5 fullShare d) ∗ owns (c : Thread nD τ) arg6 fullShare ls ∗ owns (c : Thread nD τ) arg7 fullShare xn
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)
                ∗ owns (c : Thread nD τ) arg7 fullShare xn) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, ?_, fun E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%d3, %f3, -, H3⟩, ⟨%fs, %hfs, HS⟩, ⟨%fx, %hfx, HX⟩, Hk⟩
    obtain rfl := harg2.eq_unread hf0; obtain rfl := harg3.eq_unread hf1
    obtain rfl := harg6.eq_unread hfs; obtain rfl := harg7.eq_unread hfx
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS]
    · iexists _; iexact HS
    · iexists _; isplitr; · ipureintro; exact harg7.read_unread _
      iexact HX

end Cert.Kernel.Body

end
-- ==== Proof.K.Frame.lean ====
/-
  The frame claim of the word-level kernel of the margin-softmax head, at any float instance: every weakly fair
  execution of @main terminates, faults nowhere, and leaves the three argument arrays (x, W and the labels) as they
  were launched. Nothing is said of values.

  The region is one pipelined call on the 2 × 49 grid. Its four windows are all forgotten: each staging buffer is
  handed to the body at some contents and taken back at some contents, so no statement is needed about what the
  clipped column tile of W, the clipped cosine tile or the partial-sum block hold. The region invariant is the
  class's: the two scratch buffers (running row sums, normalised rows) at some contents and the generator register
  at some state. At a grid point the body runs in one of three ways by the column-tile counter j = t mod 49
  (j = 0, 0 < j < 48, j = 48); in each the whole-body run is applied at whatever the buffers hold, and the written
  pieces are closed again into "some contents". Two of the three argument arrays are inputs of the pipeline, which
  writes no input back; the third (the labels) bypasses the region and is written by none of the host operations
  that follow it.
-/
import proofs.«402459_j22746146800347_3_alg».proof.Proof.K.RunFirst
import proofs.«402459_j22746146800347_3_alg».proof.Proof.K.RunMid
import proofs.«402459_j22746146800347_3_alg».proof.Proof.K.RunLast
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Every window is forgotten: nothing is named of what a staging buffer holds. -/
def forgets0 : Fin 4 → Bool := fun _ => true

/-- The proof data of the one pipeline on core c: the arrays as the region finds them, every window's contents
    after the body unnamed, the class invariant at every point, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-! ## The body obligation -/

/-- A written buffer is owned at some contents. -/
theorem owns_some (c : Dev nD) {sp : Space} {sh : Shape} {e : EltTy} (mr : Memref sig .tc sp sh e)
    (g : mr.view.ty.Contents (Elt F)) :
    (mr.view.loc (c : Thread nD τ) ↦[mr.view.set]{fullShare} g : sProp 𝕄) ⊢ iprop(∃ X, owns (c : Thread nD τ) mr fullShare X) := by
  unfold owns
  iintro H; iexists _; iexists g; isplitr
  · ipureintro; rfl
  · iexact H

/-- What the body is called with at point t: the invariant, what the core owes, and each window's current
    staging buffer at some contents, -/
def bodyPre (c : Dev nD) (t : Fin cfg0.N) : sProp 𝕄 :=
  iprop((dats m 0 c).Φ t.castSucc ∗ (dats m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X))

/-- and what it returns. -/
def bodyPost (c : Dev nD) (t : Fin cfg0.N) : sProp 𝕄 :=
  iprop((dats m 0 c).Φ t.succ ∗ (dats m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X)
    ∗ (∃ X, owns (c : Thread nD τ) (ms3 t) fullShare X))

set_option maxHeartbeats 1600000 in
/-- The body at any point. The counter t mod 49 says which of the three runs applies; the scratch buffers are taken
    out of the invariant at what they hold, the run is applied at those contents, and every written piece is
    closed into "some contents" again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl, PhiA_eq]
  by_cases h0 : t.val % 49 = 0
  · have h48 : ¬ t.val % 49 = 48 := by omega
    iintro ⟨⟨⟨⟨%ds, HS⟩, ⟨%dx, HX⟩⟩, HR⟩, Ho, ⟨%X0, H0⟩, ⟨%X1, H1⟩, ⟨%X2, H2⟩, ⟨%X3, H3⟩⟩
    iapply ((runFirst c (grid0.coords t) _ _ _ _ _ _ _ _ _ _ _ _ ((hcondReset t).mpr h0) ((hcondAcc t).mpr h48)
      (fun h => h48 ((hcondLast t).mp h)) X0 X1).2.2.2 X3 Set.univ _)
    isplitl [H0]; · iexact H0
    isplitl [H1]; · iexact H1
    isplitl [H2]; · iexists _; iexact H2
    isplitl [H3]; · iexact H3
    isplitl [HS]; · iexists _; iexact HS
    isplitl [HX]; · iexists _; iexact HX
    iintro ⟨H0, H1, ⟨%f2, H2⟩, H3, ⟨%fs, HS⟩, ⟨%fx, HX⟩⟩
    isplitl [HS HX HR]
    · isplitl [HS HX]
      · isplitl [HS]
        · iapply (owns_some c _ _); iexact HS
        · iapply (owns_some c _ _); iexact HX
      · iexact HR
    isplitl [Ho]; · iexact Ho
    isplitl [H0]; · iexists _; iexact H0
    isplitl [H1]; · iexists _; iexact H1
    isplitl [H2]; · iapply (owns_some c _ _); iexact H2
    iexists _; iexact H3
  · by_cases h48 : t.val % 49 = 48
    · iintro ⟨⟨⟨⟨%ds, HS⟩, ⟨%dx, HX⟩⟩, HR⟩, Ho, ⟨%X0, H0⟩, ⟨%X1, H1⟩, ⟨%X2, H2⟩, ⟨%X3, H3⟩⟩
      iapply ((runLast c (grid0.coords t) _ _ _ _ _ _ _ _ _ _ _ _ (fun h => h0 ((hcondReset t).mp h))
        (fun h => (hcondAcc t).mp h h48) ((hcondLast t).mpr h48) X0 X1 ds dx).2.2.2 Set.univ _)
      isplitl [H0]; · iexact H0
      isplitl [H1]; · iexact H1
      isplitl [H2]; · iexists _; iexact H2
      isplitl [H3]; · iexists _; iexact H3
      isplitl [HS]; · iexact HS
      isplitl [HX]; · iexact HX
      iintro ⟨H0, H1, ⟨%f2, H2⟩, ⟨%f3, H3⟩, ⟨%fs, HS⟩, HX⟩
      isplitl [HS HX HR]
      · isplitl [HS HX]
        · isplitl [HS]
          · iapply (owns_some c _ _); iexact HS
          · iexists _; iexact HX
        · iexact HR
      isplitl [Ho]; · iexact Ho
      isplitl [H0]; · iexists _; iexact H0
      isplitl [H1]; · iexists _; iexact H1
      isplitl [H2]; · iapply (owns_some c _ _); iexact H2
      iapply (owns_some c _ _); iexact H3
    · iintro ⟨⟨⟨⟨%ds, HS⟩, ⟨%dx, HX⟩⟩, HR⟩, Ho, ⟨%X0, H0⟩, ⟨%X1, H1⟩, ⟨%X2, H2⟩, ⟨%X3, H3⟩⟩
      iapply ((runMid c (grid0.coords t) _ _ _ _ _ _ _ _ _ _ _ _ (fun h => h0 ((hcondReset t).mp h))
        ((hcondAcc t).mpr h48) (fun h => h48 ((hcondLast t).mp h)) X0 X1 ds dx).2.2 X3 Set.univ _)
      isplitl [H0]; · iexact H0
      isplitl [H1]; · iexact H1
      isplitl [H2]; · iexists _; iexact H2
      isplitl [H3]; · iexact H3
      isplitl [HS]; · iexact HS
      isplitl [HX]; · iexact HX
      iintro ⟨H0, H1, ⟨%f2, H2⟩, H3, ⟨%fs, HS⟩, HX⟩
      isplitl [HS HX HR]
      · isplitl [HS HX]
        · isplitl [HS]
          · iapply (owns_some c _ _); iexact HS
          · iexists _; iexact HX
        · iexact HR
      isplitl [Ho]; · iexact Ho
      isplitl [H0]; · iexists _; iexact H0
      isplitl [H1]; · iexists _; iexact H1
      isplitl [H2]; · iapply (owns_some c _ _); iexact H2
      iexists _; iexact H3

/-- The library's body obligation with every window forgotten, at every point. -/
theorem body_obligation (c : Dev nD) :
    BodyObligation (dats (F := F) m 0 c) (defs₀ (F := F)) Variants.none () Set.univ forgets0 := fun t => by
  rw [bigSep_W0, bigSep_W0]
  exact sound_body m c t

/-! ## The host operations after the region -/

/-- The buffers the later host operations may write: every TensorCore reference but the labels' array. -/
abbrev tailW : Finset (Ref sig .tc) := Finset.univ.filter fun b => b ≠ main_arg2

theorem main_arg2_not_mem_tailW : main_arg2 ∉ tailW := fun h => (Finset.mem_filter.mp h).2 rfl

set_option maxHeartbeats 800000 in
/-- Each host operation after the region writes only its own result buffer, which is not the labels' array. -/
theorem sfx_writes : ∀ ops ∈ ([hostOps1, hostOps1_1, hostOps1_2] : List (List (HloOp τ sig (Elt F)))), ∀ op ∈ ops,
    ∀ b : Ref sig .tc, Proc.devRef .tc b ∈ op.writes → b ∈ tailW := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl
    all_goals (intro b; simp only [StableHlo.nullary_writes, StableHlo.unary_writes, StableHlo.binary_writes, StableHlo.ternary_writes, StableHlo.quaternary_writes, StableHlo.reshape_writes, StableHlo.binaryIndexed_writes, Finset.mem_singleton]; intro hb; obtain rfl := Proc.devRef_injective _ hb; exact Finset.mem_filter.mpr ⟨Finset.mem_univ _, by decide⟩)
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals (intro b; simp only [StableHlo.nullary_writes, StableHlo.unary_writes, StableHlo.binary_writes, StableHlo.ternary_writes, StableHlo.quaternary_writes, StableHlo.reshape_writes, StableHlo.binaryIndexed_writes, Finset.mem_singleton]; intro hb; obtain rfl := Proc.devRef_injective _ hb; exact Finset.mem_filter.mpr ⟨Finset.mem_univ _, by decide⟩)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl
    all_goals (intro b; simp only [StableHlo.nullary_writes, StableHlo.unary_writes, StableHlo.binary_writes, StableHlo.ternary_writes, StableHlo.quaternary_writes, StableHlo.reshape_writes, StableHlo.binaryIndexed_writes, Finset.mem_singleton]; intro hb; obtain rfl := Proc.devRef_injective _ hb; exact Finset.mem_filter.mpr ⟨Finset.mem_univ _, by decide⟩)

/-! ## The run and the frame -/

set_option backward.isDefEq.respectTransparency.types false in
/-- From any memory with zero counters, every weakly fair execution of @main terminates, every input array of the
    pipeline ends at its entry contents, and every buffer that bypasses the region and that no later host operation
    may write ends at its region-entry contents. -/
theorem run_main : θ_run defs (onTc (τ := τ) (main (F := F))) (s₀ m ρ)
    (Pipeline.RDat.FramePostR (cfgs 0) (fun c => (dats m 0 c).toRForget forgets0) tailW (V m)) :=
  Pipeline.RDat.θ_run_frame_around_T cfgs (0 : Fin 1) launch0 defs₀ Variants.none (fun c => (dats m 0 c).toRForget forgets0) tailW m ρ main
    (hbody := fun c => (body_obligation m c).toRForget) (hshare := fun c => ((dats m 0 c).toRForget forgets0).share_full fun _ => rfl)
    (howed := fun _ _ => rfl) (V₀ := V0 m) (opss := [hostOps1, hostOps1_1, hostOps1_2]) (hsub := sfx_sub) (hfresh := sfx_fresh)
    (hkeep := sfx_keeps) (hT := sfx_writes) (hmain := hmain m Variants.none) (hA := A_eq m) (hΦ := fun _ _ => rfl)

/-- THE FRAME of the word-level kernel, at any float instance: every weakly fair execution of @main terminates and
    the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePostR.arr_in h c 0 rfl).trans ((A_eq m c 0).trans (V_main_arg0 m c)),
      (Pipeline.RDat.FramePostR.arr_in h c 1 rfl).trans ((A_eq m c 1).trans (V_main_arg1 m c)),
      ((h c).2 main_arg2 (Finset.mem_sdiff.mpr ⟨Pipeline.mem_restRefs_of main_arg2 (by decide) (by decide),
        main_arg2_not_mem_tailW⟩)).trans (V_main_arg2 m c)⟩) (run_main m ρ)

end Cert.Kernel.Body

end
-- ==== Proof.KI.Shared.lean ====
/-
  The kernel body of the margin-softmax head runs in one of three ways at a grid point (h, j) of the 2 × 49 grid,
  by the column-tile counter j alone: at j = 0 the rows of x are normalised into the second scratch buffer and the
  running row sums in the first are reset; at every j < 48 the tile's row sums are added to the running sums; at
  j = 48 the masked row sums are added and the running sums are copied to the partial-sum output block. This module
  states the three branch conditions over the grid in closed form, says where the partial-sum window is idle, and
  names the memrefs the body is called with.
-/
import proofs.«402459_j22746146800347_3_alg».proof.Proof.Gen.KernelIdeal.Frame
import proofs.«402459_j22746146800347_3_alg».proof.Proof.Gen.KernelIdeal.Skeleton
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The branch conditions over the grid -/

/-- The first conditional: the column-tile counter is zero. -/
abbrev condReset (i : grid0.Coords) : Prop :=
  (Scalar.cmpi .ne (Scalar.extui (Scalar.cmpi .eq (BitVec.ofNat 32 (i 1).val) 0#32)) 0#32) = 1#1
/-- The second conditional: the column-tile counter is not the last, 48. -/
abbrev condAcc (i : grid0.Coords) : Prop :=
  (Scalar.cmpi .ne (Scalar.extui (Scalar.xori (Scalar.cmpi .eq (BitVec.ofNat 32 (i 1).val) 48#32) 1#1)) 0#32) = 1#1
/-- The third conditional: the column-tile counter is the last. -/
abbrev condLast (i : grid0.Coords) : Prop := k0_cond3 i = 1#1

theorem hcondReset : ∀ t : Fin cfg0.N, condReset (grid0.coords t) ↔ t.val % 49 = 0 :=
  (by decide +kernel : ∀ t : Fin grid0.N, condReset (grid0.coords t) ↔ t.val % 49 = 0)
theorem hcondAcc : ∀ t : Fin cfg0.N, condAcc (grid0.coords t) ↔ ¬ t.val % 49 = 48 :=
  (by decide +kernel : ∀ t : Fin grid0.N, condAcc (grid0.coords t) ↔ ¬ t.val % 49 = 48)
theorem hcondLast : ∀ t : Fin cfg0.N, condLast (grid0.coords t) ↔ t.val % 49 = 48 :=
  (by decide +kernel : ∀ t : Fin grid0.N, condLast (grid0.coords t) ↔ t.val % 49 = 48)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The partial-sum window is idle, and not written back, wherever the counter is not the last. -/
theorem idle_3 : ∀ t : Fin cfg0.N, ¬ t.val % 49 = 48 → cfg0.idle 3 (grid0.coords t) = true := by decide +kernel
theorem noFlush_3 : ∀ t : Fin cfg0.N, ¬ t.val % 49 = 48 → (cfg0.win 3).flush t = false := by decide +kernel
theorem live_3 : ∀ t : Fin cfg0.N, t.val % 49 = 48 → cfg0.idle 3 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1 .f32 := win0_3.stage (cfg0.slots t 3)
abbrev hs3 (t : Fin cfg0.N) : (ms3 t).IsWhole := hstage0_3 ((cfg0.slots t 3).cast nbuf0_3)
/-- The running row sums' scratch buffer and the normalised rows' scratch buffer. -/
abbrev scSum : Memref sig .tc .vmem S1024x1 .f32 := Memref.whole cc0_scratch0
abbrev scXn : Memref sig .tc .vmem S1024x512 .bf16 := Memref.whole cc0_scratch1

/-- What the region's invariant holds besides the windows: the two scratch buffers at some contents and the
    generator register at some state. -/
theorem PhiA_eq (c : Dev nD) :
    (Pipeline.ΦA spec0 c : sProp 𝕄)
      = iprop(iprop((∃ d, owns (c : Thread nD τ) scSum fullShare d) ∗ (∃ d, owns (c : Thread nD τ) scXn fullShare d)) ∗ (∃ r, prngReg c r)) := by
  unfold Pipeline.ΦA; rw [scopedRest0_eq]; simp only [scSum, scXn, owns_whole]; try rfl

end Cert.KernelIdeal.Body

end
-- ==== Proof.KI.RunFirst.lean ====
/-
  The body at a grid point whose column-tile counter is zero: the rows of x are normalised (each row times the
  reciprocal square root of the larger of its sum of squares and a small positive constant) into their scratch buffer,
  the running row sums are reset to zero, and then the point goes on as every other: the tile's clipped cosine
  block is stored and its row sums of exp(30·cos) are added to the (zero) running sums.
-/
import proofs.«402459_j22746146800347_3_alg».proof.Proof.KI.Shared
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores of the body at such a point, as pieces for the cosine window's buffer, the running sums and the
    normalised rows, with the proof that from whole memrefs at the given contents (the scratch buffers at anything)
    the body runs to the continuation with those pieces written and everything else as it was. -/
noncomputable def runFirst (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) :
    Σ' (L2 : List (View.Piece (Elt F) S1024x1024 .f32)) (LS : List (View.Piece (Elt F) S1024x1 .f32)), { LX : List (View.Piece (Elt F) S1024x512 .bf16) //
      ∀ (xi : Vec F S1x1024x1 .f32) (E : Set ℕ) (K : PUnit → sProp 𝕄),
        iprop(owns (c : Thread nD τ) arg2 fullShare x0 ∗ owns (c : Thread nD τ) arg3 fullShare w ∗ (∃ d, owns (c : Thread nD τ) arg4 fullShare d)
            ∗ owns (c : Thread nD τ) arg5 fullShare xi ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ owns (c : Thread nD τ) arg5 fullShare xi
                ∗ (∃ f, arg6.view.loc (c : Thread nD τ) ↦[arg6.view.set]{fullShare} arg6.view.writes (Elt F) f LS)
                ∗ (∃ f, arg7.view.loc (c : Thread nD τ) ↦[arg7.view.set]{fullShare} arg7.view.writes (Elt F) f LX)) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, ?_, fun xi E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%f3, %hf3, H3⟩, ⟨%ds, %fs, -, HS⟩, ⟨%dx, %fx, -, HX⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS]
    · iexists _; iexact HS
    · iexists _; iexact HX

end Cert.KernelIdeal.Body

end
-- ==== Proof.KI.RunMid.lean ====
/-
  The body at a grid point whose column-tile counter is neither the first nor the last: the normalised rows are
  read from their scratch buffer, the tile's clipped cosine block is stored to the cosine window's buffer, and the
  tile's row sums of exp(30·cos) are added to the running sums. The partial-sum window's buffer is not touched.
-/
import proofs.«402459_j22746146800347_3_alg».proof.Proof.KI.Shared
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores of the body at such a point, as pieces for the cosine window's buffer and for the running sums,
    with the proof that from whole memrefs at the given contents the body runs to the continuation with those
    pieces written and everything else as it was. -/
noncomputable def runMid (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) :
    Σ' (L2 : List (View.Piece (Elt F) S1024x1024 .f32)), { LS : List (View.Piece (Elt F) S1024x1 .f32) //
      ∀ (xi : Vec F S1x1024x1 .f32) (E : Set ℕ) (K : PUnit → sProp 𝕄),
        iprop(owns (c : Thread nD τ) arg2 fullShare x0 ∗ owns (c : Thread nD τ) arg3 fullShare w ∗ (∃ d, owns (c : Thread nD τ) arg4 fullShare d)
            ∗ owns (c : Thread nD τ) arg5 fullShare xi ∗ owns (c : Thread nD τ) arg6 fullShare ls ∗ owns (c : Thread nD τ) arg7 fullShare xn
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ owns (c : Thread nD τ) arg5 fullShare xi
                ∗ (∃ f, arg6.view.loc (c : Thread nD τ) ↦[arg6.view.set]{fullShare} arg6.view.writes (Elt F) f LS)
                ∗ owns (c : Thread nD τ) arg7 fullShare xn) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, fun xi E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%f3, %hf3, H3⟩, ⟨%fs, %hfs, HS⟩, ⟨%fx, %hfx, HX⟩, Hk⟩
    obtain rfl := harg2.eq_unread hf0; obtain rfl := harg3.eq_unread hf1; obtain rfl := harg5.eq_unread hf3
    obtain rfl := harg6.eq_unread hfs; obtain rfl := harg7.eq_unread hfx
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    isplitl [HS]
    · iexists _; iexact HS
    · iexists _; isplitr; · ipureintro; exact harg7.read_unread _
      iexact HX

end Cert.KernelIdeal.Body

end
-- ==== Proof.KI.RunLast.lean ====
/-
  The body at a grid point whose column-tile counter is the last, 48: the tile's clipped cosine block is stored;
  the row sums of exp(30·cos), with the columns at or past column 100000 of the whole matrix replaced by zero, are
  added to the running sums; and the running sums are copied to the partial-sum window's buffer.
-/
import proofs.«402459_j22746146800347_3_alg».proof.Proof.KI.Shared
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores of the body at such a point, as pieces for the cosine window's buffer, the partial-sum window's
    buffer and the running sums, with the proof that from whole memrefs at the given contents the body runs to the
    continuation with those pieces written and everything else as it was. -/
noncomputable def runLast (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) :
    Σ' (L2 : List (View.Piece (Elt F) S1024x1024 .f32)) (L3 : List (View.Piece (Elt F) S1x1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare w ∗ (∃ d, owns (c : Thread nD τ) arg4 fullShare d)
            ∗ (∃ d, owns (c : Thread nD τ) arg5 fullShare d) ∗ owns (c : Thread nD τ) arg6 fullShare ls ∗ owns (c : Thread nD τ) arg7 fullShare xn
            ∗ (iprop(owns (c : Thread nD τ) arg2 fullShare x0 ∗ owns (c : Thread nD τ) arg3 fullShare w
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)
                ∗ owns (c : Thread nD τ) arg7 fullShare xn) -∗ K ⟨⟩))
          ⊢ wp frame (wpE (defs₀ (F := F)) Variants.none c none) E (cc0__lambda_ i arg2 harg2 arg3 harg3 arg4 harg4 arg5 harg5 arg6 harg6 arg7 harg7) K } := by
  refine ⟨?_, ?_, ?_, fun E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%d3, %f3, -, H3⟩, ⟨%fs, %hfs, HS⟩, ⟨%fx, %hfx, HX⟩, Hk⟩
    obtain rfl := harg2.eq_unread hf0; obtain rfl := harg3.eq_unread hf1
    obtain rfl := harg6.eq_unread hfs; obtain rfl := harg7.eq_unread hfx
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    isplitl [HS]
    · iexists _; iexact HS
    · iexists _; isplitr; · ipureintro; exact harg7.read_unread _
      iexact HX

end Cert.KernelIdeal.Body

end
-- ==== Proof.KI.Pieces.lean ====
/-
  What the three runs of the body leave in each buffer, read back as one value: every store of the body writes a
  whole buffer, so a buffer's contents after the run are its last store's payload, and a value loaded after a
  store is that store's payload.
-/
import proofs.«402459_j22746146800347_3_alg».proof.Proof.KI.RunFirst
import proofs.«402459_j22746146800347_3_alg».proof.Proof.KI.RunMid
import proofs.«402459_j22746146800347_3_alg».proof.Proof.KI.RunLast
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## A middle point -/

theorem mid_cover_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) (y : S1024x1024.Idx) :
    ∃ pc ∈ (runMid c i arg2 harg2 arg3 harg3 arg4 harg4 arg5 harg5 arg6 harg6 arg7 harg7 hc0 hc1 hc2 x0 w ls xn).1, y ∈ pc.1.set :=
  View.cover_of_tiledL (runMid c i arg2 harg2 arg3 harg3 arg4 harg4 arg5 harg5 arg6 harg6 arg7 harg7 hc0 hc1 hc2 x0 w ls xn).1 S1024x1024.size (by sl_kernel_rfl) y

theorem mid_cover_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) (y : S1024x1.Idx) :
    ∃ pc ∈ (runMid c i arg2 harg2 arg3 harg3 arg4 harg4 arg5 harg5 arg6 harg6 arg7 harg7 hc0 hc1 hc2 x0 w ls xn).2.1, y ∈ pc.1.set :=
  View.cover_of_tiledL (runMid c i arg2 harg2 arg3 harg3 arg4 harg4 arg5 harg5 arg6 harg6 arg7 harg7 hc0 hc1 hc2 x0 w ls xn).2.1 S1024x1.size (by sl_kernel_rfl) y

/-- The cosine window's buffer ends at the clipped product of the normalised rows and the tile's normalised columns. -/
theorem mid_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) (f) :
    arg4.view.read (Elt F) (arg4.view.writes (Elt F) f (runMid c i arg2 harg2 arg3 harg3 arg4 harg4 arg5 harg5 arg6 harg6 arg7 harg7 hc0 hc1 hc2 x0 w ls xn).1) = k0_pay3 xn w := by
  have hz : (![0, 0] : Fin 2 → Nat) = fun _ => 0 := funext fun a => by fin_cases a <;> rfl
  rw [View.read_writes_eq_canon _ _ _ (mid_cover_cos c i arg2 harg2 arg3 harg3 arg4 harg4 arg5 harg5 arg6 harg6 arg7 harg7 hc0 hc1 hc2 x0 w ls xn)]
  unfold runMid; dsimp only; sl_unfold_words
  rw [View.canon_unit_zero hz]
  simp only [View.readAt_eq_ld, harg7.read_unread, harg3.read_unread, View.ld_unit_zero (S := S1024x512) hz, View.ld_unit_zero (S := S512x1024) hz]

/-- The running sums end at what they were plus the tile's row sums. -/
theorem mid_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : condAcc i) (hc2 : ¬condLast i)
    (x0 : Vec F S1024x512 .f32) (w : Vec F S512x1024 .f32) (ls : Vec F S1024x1 .f32) (xn : Vec F S1024x512 .bf16) (f) :
    arg6.view.read (Elt F) (arg6.view.writes (Elt F) f (runMid c i arg2 harg2 arg3 harg3 arg4 harg4 arg5 harg5 arg6 harg6 arg7 harg7 hc0 hc1 hc2 x0 w ls xn).2.1) = k0_pay5 xn w ls := by
  have hz : (![0, 0] : Fin 2 → Nat) = fun _ => 0 := funext fun a => by fin_cases a <;> rfl
  rw [View.read_writes_eq_canon _ _ _ (mid_cover_sum c i arg2 harg2 arg3 harg3 arg4 harg4 arg5 harg5 arg6 harg6 arg7 harg7 hc0 hc1 hc2 x0 w ls xn)]
  unfold runMid; dsimp only; sl_unfold_words
  rw [View.canon_unit_zero hz]
  simp only [View.readAt_eq_ld, harg7.read_unread, harg3.read_unread, harg6.read_unread, View.ld_unit_zero (S := S1024x512) hz, View.ld_unit_zero (S := S512x1024) hz, View.ld_unit_zero (S := S1024x1) hz]

/-! ## A first point -/

theorem first_cover_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (y : S1024x1024.Idx) :
    ∃ pc ∈ (runFirst c i arg2 harg2 arg3 harg3 arg4 harg4 arg5 harg5 arg6 harg6 arg7 harg7 hc0 hc1 hc2 x0 w).1, y ∈ pc.1.set :=
  View.cover_of_tiledL (runFirst c i arg2 harg2 arg3 harg3 arg4 harg4 arg5 harg5 arg6 harg6 arg7 harg7 hc0 hc1 hc2 x0 w).1 S1024x1024.size (by sl_kernel_rfl) y

theorem first_cover_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (y : S1024x1.Idx) :
    ∃ pc ∈ (runFirst c i arg2 harg2 arg3 harg3 arg4 harg4 arg5 harg5 arg6 harg6 arg7 harg7 hc0 hc1 hc2 x0 w).2.1, y ∈ pc.1.set :=
  View.cover_of_tiledL (runFirst c i arg2 harg2 arg3 harg3 arg4 harg4 arg5 harg5 arg6 harg6 arg7 harg7 hc0 hc1 hc2 x0 w).2.1 S1024x1.size (by sl_kernel_rfl) y

theorem first_cover_xn (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (y : S1024x512.Idx) :
    ∃ pc ∈ (runFirst c i arg2 harg2 arg3 harg3 arg4 harg4 arg5 harg5 arg6 harg6 arg7 harg7 hc0 hc1 hc2 x0 w).2.2.1, y ∈ pc.1.set :=
  View.cover_of_tiledL (runFirst c i arg2 harg2 arg3 harg3 arg4 harg4 arg5 harg5 arg6 harg6 arg7 harg7 hc0 hc1 hc2 x0 w).2.2.1 S1024x512.size (by sl_kernel_rfl) y

theorem first_xn (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (f) :
    arg7.view.read (Elt F) (arg7.view.writes (Elt F) f (runFirst c i arg2 harg2 arg3 harg3 arg4 harg4 arg5 harg5 arg6 harg6 arg7 harg7 hc0 hc1 hc2 x0 w).2.2.1) = k0_pay1 x0 := by
  have hz : (![0, 0] : Fin 2 → Nat) = fun _ => 0 := funext fun a => by fin_cases a <;> rfl
  rw [View.read_writes_eq_canon _ _ _ (first_cover_xn c i arg2 harg2 arg3 harg3 arg4 harg4 arg5 harg5 arg6 harg6 arg7 harg7 hc0 hc1 hc2 x0 w)]
  unfold runFirst; dsimp only; sl_unfold_words
  rw [View.canon_unit_zero hz]
  simp only [View.readAt_eq_ld, harg2.read_unread, harg3.read_unread, harg6.read_unread, harg7.read_unread, View.ld_unit_zero (S := S1024x512) hz, View.ld_unit_zero (S := S512x1024) hz, View.ld_unit_zero (S := S1024x1) hz, View.readCov_unit_zero (S := S1024x512) _ hz, View.readCov_unit_zero (S := S1024x1) _ hz]

theorem first_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (f) :
    arg4.view.read (Elt F) (arg4.view.writes (Elt F) f (runFirst c i arg2 harg2 arg3 harg3 arg4 harg4 arg5 harg5 arg6 harg6 arg7 harg7 hc0 hc1 hc2 x0 w).1) = k0_pay3 (k0_pay1 x0) w := by
  have hz : (![0, 0] : Fin 2 → Nat) = fun _ => 0 := funext fun a => by fin_cases a <;> rfl
  rw [View.read_writes_eq_canon _ _ _ (first_cover_cos c i arg2 harg2 arg3 harg3 arg4 harg4 arg5 harg5 arg6 harg6 arg7 harg7 hc0 hc1 hc2 x0 w)]
  unfold runFirst; dsimp only; sl_unfold_words
  rw [View.canon_unit_zero hz]
  simp only [View.readAt_eq_ld, harg2.read_unread, harg3.read_unread, harg6.read_unread, harg7.read_unread, View.ld_unit_zero (S := S1024x512) hz, View.ld_unit_zero (S := S512x1024) hz, View.ld_unit_zero (S := S1024x1) hz, View.readCov_unit_zero (S := S1024x512) _ hz, View.readCov_unit_zero (S := S1024x1) _ hz]

theorem first_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : condReset i) (hc1 : condAcc i) (hc2 : ¬condLast i)
    (x0 : Vec F S1024x512 .f32) (w : Vec F S512x1024 .f32) (f) :
    arg6.view.read (Elt F) (arg6.view.writes (Elt F) f (runFirst c i arg2 harg2 arg3 harg3 arg4 harg4 arg5 harg5 arg6 harg6 arg7 harg7 hc0 hc1 hc2 x0 w).2.1) = k0_pay5 (k0_pay1 x0) w (k0_pay2 (F := F)) := by
  have hz : (![0, 0] : Fin 2 → Nat) = fun _ => 0 := funext fun a => by fin_cases a <;> rfl
  rw [View.read_writes_eq_canon _ _ _ (first_cover_sum c i arg2 harg2 arg3 harg3 arg4 harg4 arg5 harg5 arg6 harg6 arg7 harg7 hc0 hc1 hc2 x0 w)]
  unfold runFirst; dsimp only; sl_unfold_words
  rw [View.canon_cons_unit_zero (S := S1024x1) hz]
  simp only [View.readAt_eq_ld, harg2.read_unread, harg3.read_unread, harg6.read_unread, harg7.read_unread, View.ld_unit_zero (S := S1024x512) hz, View.ld_unit_zero (S := S512x1024) hz, View.ld_unit_zero (S := S1024x1) hz, View.readCov_unit_zero (S := S1024x512) _ hz, View.readCov_unit_zero (S := S1024x1) _ hz]

/-! ## A last point -/

theorem last_cover_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (y : S1024x1024.Idx) :
    ∃ pc ∈ (runLast c i arg2 harg2 arg3 harg3 arg4 harg4 arg5 harg5 arg6 harg6 arg7 harg7 hc0 hc1 hc2 x0 w ls xn).1, y ∈ pc.1.set :=
  View.cover_of_tiledL (runLast c i arg2 harg2 arg3 harg3 arg4 harg4 arg5 harg5 arg6 harg6 arg7 harg7 hc0 hc1 hc2 x0 w ls xn).1 S1024x1024.size (by sl_kernel_rfl) y

theorem last_cover_out (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (y : S1x1024x1.Idx) :
    ∃ pc ∈ (runLast c i arg2 harg2 arg3 harg3 arg4 harg4 arg5 harg5 arg6 harg6 arg7 harg7 hc0 hc1 hc2 x0 w ls xn).2.1, y ∈ pc.1.set :=
  View.cover_of_tiledL (runLast c i arg2 harg2 arg3 harg3 arg4 harg4 arg5 harg5 arg6 harg6 arg7 harg7 hc0 hc1 hc2 x0 w ls xn).2.1 S1x1024x1.size (by sl_kernel_rfl) y

theorem last_cover_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (y : S1024x1.Idx) :
    ∃ pc ∈ (runLast c i arg2 harg2 arg3 harg3 arg4 harg4 arg5 harg5 arg6 harg6 arg7 harg7 hc0 hc1 hc2 x0 w ls xn).2.2.1, y ∈ pc.1.set :=
  View.cover_of_tiledL (runLast c i arg2 harg2 arg3 harg3 arg4 harg4 arg5 harg5 arg6 harg6 arg7 harg7 hc0 hc1 hc2 x0 w ls xn).2.2.1 S1024x1.size (by sl_kernel_rfl) y

theorem last_cos (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (f) :
    arg4.view.read (Elt F) (arg4.view.writes (Elt F) f (runLast c i arg2 harg2 arg3 harg3 arg4 harg4 arg5 harg5 arg6 harg6 arg7 harg7 hc0 hc1 hc2 x0 w ls xn).1) = k0_pay3 xn w := by
  have hz : (![0, 0] : Fin 2 → Nat) = fun _ => 0 := funext fun a => by fin_cases a <;> rfl
  rw [View.read_writes_eq_canon _ _ _ (last_cover_cos c i arg2 harg2 arg3 harg3 arg4 harg4 arg5 harg5 arg6 harg6 arg7 harg7 hc0 hc1 hc2 x0 w ls xn)]
  unfold runLast; dsimp only; sl_unfold_words
  rw [View.canon_unit_zero hz]
  simp only [View.readAt_eq_ld, harg7.read_unread, harg3.read_unread, View.ld_unit_zero (S := S1024x512) hz, View.ld_unit_zero (S := S512x1024) hz]

theorem last_sum (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (f) :
    arg6.view.read (Elt F) (arg6.view.writes (Elt F) f (runLast c i arg2 harg2 arg3 harg3 arg4 harg4 arg5 harg5 arg6 harg6 arg7 harg7 hc0 hc1 hc2 x0 w ls xn).2.2.1) = k0_pay6 i xn w ls := by
  have hz : (![0, 0] : Fin 2 → Nat) = fun _ => 0 := funext fun a => by fin_cases a <;> rfl
  rw [View.read_writes_eq_canon _ _ _ (last_cover_sum c i arg2 harg2 arg3 harg3 arg4 harg4 arg5 harg5 arg6 harg6 arg7 harg7 hc0 hc1 hc2 x0 w ls xn)]
  unfold runLast; dsimp only; sl_unfold_words
  rw [View.canon_unit_zero hz]
  simp only [View.readAt_eq_ld, harg2.read_unread, harg3.read_unread, harg6.read_unread, harg7.read_unread, View.ld_unit_zero (S := S1024x512) hz, View.ld_unit_zero (S := S512x1024) hz, View.ld_unit_zero (S := S1024x1) hz, View.readCov_unit_zero (S := S1024x512) _ hz, View.readCov_unit_zero (S := S1024x1) _ hz]

theorem last_out (c : Dev nD) (i : grid0.Coords) (arg2 : Memref sig .tc .vmem S1024x512 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x512 .bf16) (harg7 : arg7.IsWhole) (hc0 : ¬condReset i) (hc1 : ¬condAcc i) (hc2 : condLast i)
    (x0 : Vec F S1024x512 .f32) (w : Vec F S512x1024 .f32) (ls : Vec F S1024x1 .f32) (xn : Vec F S1024x512 .bf16) (f) :
    arg5.view.read (Elt F) (arg5.view.writes (Elt F) f (runLast c i arg2 harg2 arg3 harg3 arg4 harg4 arg5 harg5 arg6 harg6 arg7 harg7 hc0 hc1 hc2 x0 w ls xn).2.1) = k0_pay7 (k0_pay6 i xn w ls) := by
  have hz3 : (![0, 0, 0] : Fin 3 → Nat) = fun _ => 0 := funext fun a => by fin_cases a <;> rfl
  have hz : (![0, 0] : Fin 2 → Nat) = fun _ => 0 := funext fun a => by fin_cases a <;> rfl
  rw [View.read_writes_eq_canon _ _ _ (last_cover_out c i arg2 harg2 arg3 harg3 arg4 harg4 arg5 harg5 arg6 harg6 arg7 harg7 hc0 hc1 hc2 x0 w ls xn)]
  unfold runLast; dsimp only; sl_unfold_words
  rw [View.canon_unit_zero hz3]
  simp only [View.readAt_eq_ld, harg2.read_unread, harg3.read_unread, harg6.read_unread, harg7.read_unread, View.ld_unit_zero (S := S1024x512) hz, View.ld_unit_zero (S := S512x1024) hz, View.ld_unit_zero (S := S1024x1) hz, View.readCov_unit_zero (S := S1024x512) _ hz, View.readCov_unit_zero (S := S1024x1) _ hz]

end Cert.KernelIdeal.Body

end
-- ==== Proof.KI.Data.lean ====
/-
  The proof data of the pallas_call at a float instance F, and its body obligation.

  After the body at grid point t the cosine window's buffer holds the clipped product of the normalised rows and
  the point's normalised column tile; the first scratch buffer holds the running row sums of exp(30·cos) over the
  core's tiles so far; the second holds the normalised rows. The column tile's buffer is clipped at the last tile
  of the matrix: the columns past column 100000 hold words nothing names. The data below are stated over the tile
  with ZERO in those columns; that the named columns of the cosine block, and the masked row sums at the last
  tile, do not depend on the unnamed words is taken here as a hypothesis (`Indep97`) and proved where the
  arithmetic is read over the extended reals.
-/
import proofs.«402459_j22746146800347_3_alg».proof.Proof.KI.Pieces
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The column tile of W at point `t`, zero past the matrix's last column. -/
def wz (c : Dev nD) (t : Fin cfg0.N) : Vec F S512x1024 .f32 :=
  win0_1.fill (grid0.coords t) (fun _ => Scalar.ofBits .f32 0#32) (iblk m c 1 t)

/-- The grid's last point, the one whose column tile overhangs the matrix. -/
def tEnd : Fin cfg0.N := ⟨97, by rw [show cfg0.N = 98 from N_0]; omega⟩

/-- At the last point the named columns of the cosine block and the masked row sums do not depend on what the
    column tile's buffer holds past the matrix. -/
structure Indep97 : Prop where
  cos : ∀ (c : Dev nD) (d : S512x1024.Idx → Elt F .f32) (xn : Vec F S1024x512 .bf16),
    win0_2.cut (grid0.coords tEnd) (k0_pay3 xn (win0_1.fill (grid0.coords tEnd) d (iblk m c 1 tEnd)))
      = win0_2.cut (grid0.coords tEnd) (k0_pay3 xn (wz m c tEnd))
  sum : ∀ (c : Dev nD) (d : S512x1024.Idx → Elt F .f32) (xn : Vec F S1024x512 .bf16) (ls : Vec F S1024x1 .f32),
    k0_pay6 (grid0.coords tEnd) xn (win0_1.fill (grid0.coords tEnd) d (iblk m c 1 tEnd)) ls
      = k0_pay6 (grid0.coords tEnd) xn (wz m c tEnd) ls

/-- Every tile but the last lies inside the matrix. -/
theorem hclip1 : ∀ t : Fin cfg0.N, t.val ≠ 97 → ∀ a, (cfg0.win 1).clip (grid0.coords t) a = none := by decide +kernel

/-- There the tile's buffer holds the tile whatever it held before the fetch. -/
theorem fill_eq_wz (c : Dev nD) (t : Fin cfg0.N) (h : t.val ≠ 97) (d : S512x1024.Idx → Elt F .f32) :
    win0_1.fill (grid0.coords t) d (iblk m c 1 t) = wz m c t :=
  Pipeline.fill_of_clip_none (cfg := cfg0) 1 (grid0.coords t) (hclip1 t h) d _ _

variable {m} in
theorem pay3_indep (hI : Indep97 m) (c : Dev nD) (t : Fin cfg0.N) (d : S512x1024.Idx → Elt F .f32) (xn : Vec F S1024x512 .bf16) :
    win0_2.cut (grid0.coords t) (k0_pay3 xn (win0_1.fill (grid0.coords t) d (iblk m c 1 t)))
      = win0_2.cut (grid0.coords t) (k0_pay3 xn (wz m c t)) := by
  by_cases h : t.val = 97
  · obtain rfl : t = tEnd := Fin.ext h
    exact hI.cos c d xn
  · rw [fill_eq_wz m c t h d]

theorem pay5_indep (c : Dev nD) (t : Fin cfg0.N) (h : ¬t.val % 49 = 48) (d : S512x1024.Idx → Elt F .f32) (xn : Vec F S1024x512 .bf16) (ls : Vec F S1024x1 .f32) :
    k0_pay5 xn (win0_1.fill (grid0.coords t) d (iblk m c 1 t)) ls = k0_pay5 xn (wz m c t) ls := by
  rw [fill_eq_wz m c t (fun h97 => h (by rw [h97])) d]

variable {m} in
theorem pay6_indep (hI : Indep97 m) (c : Dev nD) (t : Fin cfg0.N) (d : S512x1024.Idx → Elt F .f32) (xn : Vec F S1024x512 .bf16) (ls : Vec F S1024x1 .f32) :
    k0_pay6 (grid0.coords t) xn (win0_1.fill (grid0.coords t) d (iblk m c 1 t)) ls = k0_pay6 (grid0.coords t) xn (wz m c t) ls := by
  by_cases h : t.val = 97
  · obtain rfl : t = tEnd := Fin.ext h
    exact hI.sum c d xn ls
  · rw [fill_eq_wz m c t h d]

/-- The cosine block, the running row sums and the normalised rows after a point. -/
structure St (F : FTy → Type) [FloatOps F] where
  cos : Vec F S1024x1024 .f32
  ls : Vec F S1024x1 .f32
  xn : Vec F S1024x512 .bf16

/-- After a point whose tile counter is zero: rows normalised afresh, sums from zero. -/
def stFirst (c : Dev nD) (t : Fin cfg0.N) : St F :=
  ⟨k0_pay3 (k0_pay1 (iblk m c 0 t)) (wz m c t), k0_pay5 (k0_pay1 (iblk m c 0 t)) (wz m c t) (k0_pay2 (F := F)), k0_pay1 (iblk m c 0 t)⟩
/-- After a middle point, over what the point before left. -/
def stMid (c : Dev nD) (t : Fin cfg0.N) (p : St F) : St F :=
  ⟨k0_pay3 p.xn (wz m c t), k0_pay5 p.xn (wz m c t) p.ls, p.xn⟩
/-- After a point whose tile counter is the last, over what the point before left. -/
def stLast (c : Dev nD) (t : Fin cfg0.N) (p : St F) : St F :=
  ⟨k0_pay3 p.xn (wz m c t), k0_pay6 (grid0.coords t) p.xn (wz m c t) p.ls, p.xn⟩

/-- What the buffers hold after the body at position `n`, by recursion on the position. -/
def stAt (c : Dev nD) : (n : ℕ) → n < cfg0.N → St F
  | 0, hn => stFirst m c ⟨0, hn⟩
  | n + 1, hn =>
    if (n + 1) % 49 = 0 then stFirst m c ⟨n + 1, hn⟩
    else if (n + 1) % 49 = 48 then stLast m c ⟨n + 1, hn⟩ (stAt c n (Nat.lt_of_succ_lt hn))
    else stMid m c ⟨n + 1, hn⟩ (stAt c n (Nat.lt_of_succ_lt hn))

theorem stAt_first (c : Dev nD) (t : Fin cfg0.N) (h0 : t.val % 49 = 0) : stAt m c t.val t.isLt = stFirst m c t := by
  obtain ⟨n, hn⟩ := t
  cases n with
  | zero => rfl
  | succ n => exact if_pos h0

theorem stAt_mid (c : Dev nD) (t : Fin cfg0.N) (h0 : ¬t.val % 49 = 0) (h1 : ¬t.val % 49 = 48) :
    stAt m c t.val t.isLt = stMid m c t (stAt m c (t.val - 1) (Nat.lt_of_le_of_lt (Nat.sub_le _ _) t.isLt)) := by
  obtain ⟨n, hn⟩ := t
  cases n with
  | zero => exact absurd (Nat.zero_mod _) h0
  | succ n => exact (if_neg h0).trans (if_neg h1)

theorem stAt_last (c : Dev nD) (t : Fin cfg0.N) (h0 : ¬t.val % 49 = 0) (h1 : t.val % 49 = 48) :
    stAt m c t.val t.isLt = stLast m c t (stAt m c (t.val - 1) (Nat.lt_of_le_of_lt (Nat.sub_le _ _) t.isLt)) := by
  obtain ⟨n, hn⟩ := t
  cases n with
  | zero => exact absurd (Nat.zero_mod _) h0
  | succ n => exact (if_neg h0).trans (if_pos h1)

/-! ## The invariant: the scratch buffers between points -/

def PhiS (c : Dev nD) : (n : ℕ) → n ≤ cfg0.N → sProp 𝕄
  | 0, _ => Pipeline.ΦA spec0 c
  | n + 1, hn => iprop(iprop(owns (c : Thread nD τ) scSum fullShare (stAt m c n hn).ls ∗ owns (c : Thread nD τ) scXn fullShare (stAt m c n hn).xn) ∗ (∃ r, prngReg c r))

theorem PhiS_succ (c : Dev nD) (n : ℕ) (hn : n < cfg0.N) :
    PhiS m c (n + 1) hn = iprop(iprop(owns (c : Thread nD τ) scSum fullShare (stAt m c n hn).ls ∗ owns (c : Thread nD τ) scXn fullShare (stAt m c n hn).xn) ∗ (∃ r, prngReg c r)) := rfl

theorem PhiS_pos (c : Dev nD) (n : ℕ) (h : n ≤ cfg0.N) (hz : n ≠ 0) :
    PhiS m c n h = iprop(iprop(owns (c : Thread nD τ) scSum fullShare (stAt m c (n - 1) (by omega)).ls ∗ owns (c : Thread nD τ) scXn fullShare (stAt m c (n - 1) (by omega)).xn) ∗ (∃ r, prngReg c r)) := by
  cases n with
  | zero => exact absurd rfl hz
  | succ n => rfl

/-- At any position the invariant holds both scratch buffers at SOME contents. -/
theorem PhiS_any (c : Dev nD) (n : ℕ) (h : n ≤ cfg0.N) :
    PhiS m c n h ⊢ iprop(iprop((∃ d, owns (c : Thread nD τ) scSum fullShare d) ∗ (∃ d, owns (c : Thread nD τ) scXn fullShare d)) ∗ (∃ r, prngReg c r)) := by
  cases n with
  | zero => rw [show PhiS m c 0 h = Pipeline.ΦA spec0 c from rfl, PhiA_eq]
  | succ n =>
    rw [PhiS_succ]
    iintro ⟨⟨HS, HX⟩, Hg⟩
    isplitr [Hg]
    · isplitl [HS]
      · iexists _; iexact HS
      · iexists _; iexact HX
    · iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wz m c t
    | ⟨2, _⟩ => (stAt m c t.val t.isLt).cos
    | ⟨3, _⟩ => k0_pay7 (stAt m c t.val t.isLt).ls
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = wz m c t := by dsimp only [dats]
theorem after_2 (c : Dev nD) (t : Fin cfg0.N) : (dats m 0 c).after 2 t = (stAt m c t.val t.isLt).cos := by dsimp only [dats]
theorem after_3 (c : Dev nD) (t : Fin cfg0.N) : (dats m 0 c).after 3 t = k0_pay7 (stAt m c t.val t.isLt).ls := by dsimp only [dats]

/-- The rows' window holds the whole of x at every point. -/
theorem before_0 (c : Dev nD) (t : Fin cfg0.N) (d) : (dats m 0 c).before 0 t d = iblk m c 0 t :=
  before0_0_of m (dats m 0 c) (A_eq m c 0) (after_0 m c) t d

/-- The column tile's window is fetched at every point: its buffer holds the tile on the columns inside the matrix
    and whatever it held, `d`, past them. -/
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]

/-- The cosine window is written back at every point: the body finds its buffer at anything. -/
theorem before_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

end Cert.KernelIdeal.Body

end
-- ==== Proof.KI.Body.lean ====
/-
  The body obligation and the run of the idealised kernel with the values named, at a float instance F.

  At grid point t the body finds the rows' buffer at x, the column tile's buffer at the tile on the columns inside
  the matrix and at unnamed words past them, the cosine window's buffer at anything, and the two scratch buffers at
  what the point before left (at anything before a point whose tile counter is zero, where both are overwritten).
  It leaves the cosine block of the normalised rows against the tile, the running row sums advanced by the tile's
  row sums (masked at the last tile), the normalised rows, and at a point whose tile counter is the last the
  partial-sum block. The column tile's and the cosine window's buffers are described only on the part their
  transfers move: past the matrix's last column the cosine block and the row sums are computed from the unnamed
  words, and that the named part does not depend on them is the hypothesis Indep97.
-/
import proofs.«402459_j22746146800347_3_alg».proof.Proof.KI.Data
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body returns, window by window -/

/-- A buffer written to contents that read back as X is owned at X. -/
theorem owns_of_read (c : Dev nD) {sp : Space} {sh : Shape} {e : EltTy} (mr : Memref sig .tc sp sh e)
    (g : mr.view.ty.Contents (Elt F)) (X : sh.Idx → Elt F e) (h : mr.view.read (Elt F) g = X) :
    (mr.view.loc (c : Thread nD τ) ↦[mr.view.set]{fullShare} g : sProp 𝕄) ⊢ owns (c : Thread nD τ) mr fullShare X := by
  subst h; exact owns_intro _ _ _ _

/-- The rows' window is never idle and is described whole. -/
theorem leaves_0 (c : Dev nD) (t : Fin cfg0.N) :
    (dats m 0 c).leaves 0 t = owns (c : Thread nD τ) (ms0 t) fullShare (iblk m c 0 t) := by
  unfold Dat.leaves; rw [live_0 t]; dsimp only; rw [after_0]

/-- The column tile's window is never idle and is described on the part its fetch moves. -/
theorem leaves_1 (c : Dev nD) (t : Fin cfg0.N) :
    (dats m 0 c).leaves 1 t = iprop(∃ d, owns (c : Thread nD τ) (ms1 t) fullShare
      (win0_1.fill (grid0.coords t) d (win0_1.cut (grid0.coords t) (wz m c t)))) := by
  unfold Dat.leaves; rw [live_1 t]; dsimp only; rw [after_1]; rfl

/-- The cosine window is never idle and is described on the part its write-back moves. -/
theorem leaves_2 (c : Dev nD) (t : Fin cfg0.N) :
    (dats m 0 c).leaves 2 t = iprop(∃ d, owns (c : Thread nD τ) (ms2 t) fullShare
      (win0_2.fill (grid0.coords t) d (win0_2.cut (grid0.coords t) (stAt m c t.val t.isLt).cos))) := by
  unfold Dat.leaves; rw [live_2 t]; dsimp only; rw [after_2]; rfl

/-- The partial-sum window at a point whose tile counter is the last: the block of the running sums. -/
theorem leaves_3_last (c : Dev nD) (t : Fin cfg0.N) (h : t.val % 49 = 48) :
    (dats m 0 c).leaves 3 t = owns (c : Thread nD τ) (ms3 t) fullShare (k0_pay7 (stAt m c t.val t.isLt).ls) := by
  unfold Dat.leaves; rw [live_3 t h]; dsimp only; rw [after_3]

/-- The tile's buffer, refilled on the fetched part with the zero-padded tile's, is itself. -/
theorem fill_wz (c : Dev nD) (t : Fin cfg0.N) (d : S512x1024.Idx → Elt F .f32) :
    win0_1.fill (grid0.coords t) (win0_1.fill (grid0.coords t) d (iblk m c 1 t)) (win0_1.cut (grid0.coords t) (wz m c t))
      = win0_1.fill (grid0.coords t) d (iblk m c 1 t) :=
  win0_1.fill_congr_cut (grid0.coords t) (by unfold wz; rw [Window.cut_fill, Window.cut_fill])

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
/-- The body at any point, by the tile counter t mod 49. -/
theorem sound_body (hI : Indep97 m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, PhiS_castSucc m c t]
  by_cases h0 : t.val % 49 = 0
  · have h48 : ¬ t.val % 49 = 48 := by omega
    rw [Dat.leaves_idle (dats m 0 c) 3 t (idle_3 t h48) (noFlush_3 t h48)]
    rw [stAt_first m c t h0]; unfold stFirst; dsimp only
    refine (sep_mono (PhiS_any m c _ _) .rfl).trans ?_
    iintro ⟨⟨⟨⟨%ds, HS⟩, ⟨%dx, HX⟩⟩, HR⟩, Ho, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) scSum (Memref.isWhole_whole _) scXn (Memref.isWhole_whole _)
      ((hcondReset t).mpr h0) ((hcondAcc t).mpr h48) (fun h => h48 ((hcondLast t).mp h))
      (iblk m c 0 t) (win0_1.fill (grid0.coords t) d1 (iblk m c 1 t))).2.2.2 _ Set.univ _)
    isplitl [H0]; · iexact H0
    isplitl [H1]; · iexact H1
    isplitl [H2]; · iexists _; iexact H2
    isplitl [H3]; · iexact H3
    isplitl [HS]; · iexists _; iexact HS
    isplitl [HX]; · iexists _; iexact HX
    iintro ⟨H0, H1, ⟨%f2, H2⟩, H3, ⟨%fs, HS⟩, ⟨%fx, HX⟩⟩
    isplitl [HS HX HR]
    · isplitl [HS HX]
      · isplitl [HS]
        · iapply (owns_of_read c _ _ _ ((first_sum c _ _ _ _ _ _ _ _ _ _ _ _ _ _ _ _ _ _ fs).trans (pay5_indep m c t h48 d1 _ _)))
          iexact HS
        · iapply (owns_of_read c _ _ _ (first_xn c _ _ _ _ _ _ _ _ _ _ _ _ _ _ _ _ _ _ fx))
          iexact HX
      · iexact HR
    isplitl [Ho]; · iexact Ho
    isplitl [H0]; · iexact H0
    isplitl [H1]
    · iexists (win0_1.fill (grid0.coords t) d1 (iblk m c 1 t)); rw [fill_wz m c t d1]; iexact H1
    isplitl [H2]
    · iexists (k0_pay3 (k0_pay1 (iblk m c 0 t)) (win0_1.fill (grid0.coords t) d1 (iblk m c 1 t)))
      rw [win0_2.fill_congr_cut (grid0.coords t) (pay3_indep hI c t d1 _)]
      iapply (owns_of_read c _ _ _ (first_cos c _ _ _ _ _ _ _ _ _ _ _ _ _ _ _ _ _ _ f2))
      iexact H2
    iexists _; iexact H3
  · have hz : t.val ≠ 0 := fun h => h0 (by rw [h])
    rw [PhiS_pos m c _ _ hz]
    by_cases h48 : t.val % 49 = 48
    · rw [leaves_3_last m c t h48]
      rw [stAt_last m c t h0 h48]; unfold stLast; dsimp only
      iintro ⟨⟨⟨HS, HX⟩, HR⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) scSum (Memref.isWhole_whole _) scXn (Memref.isWhole_whole _)
        (fun h => h0 ((hcondReset t).mp h)) (fun h => (hcondAcc t).mp h h48) ((hcondLast t).mpr h48)
        (iblk m c 0 t) (win0_1.fill (grid0.coords t) d1 (iblk m c 1 t)) _ _).2.2.2 Set.univ _)
      isplitl [H0]; · iexact H0
      isplitl [H1]; · iexact H1
      isplitl [H2]; · iexists _; iexact H2
      isplitl [H3]; · iexists _; iexact H3
      isplitl [HS]; · iexact HS
      isplitl [HX]; · iexact HX
      iintro ⟨H0, H1, ⟨%f2, H2⟩, ⟨%f3, H3⟩, ⟨%fs, HS⟩, HX⟩
      isplitl [HS HX HR]
      · isplitl [HS HX]
        · isplitl [HS]
          · iapply (owns_of_read c _ _ _ ((last_sum c _ _ _ _ _ _ _ _ _ _ _ _ _ _ _ _ _ _ _ _ fs).trans (pay6_indep hI c t d1 _ _)))
            iexact HS
          · iexact HX
        · iexact HR
      isplitl [Ho]; · iexact Ho
      isplitl [H0]; · iexact H0
      isplitl [H1]
      · iexists (win0_1.fill (grid0.coords t) d1 (iblk m c 1 t)); rw [fill_wz m c t d1]; iexact H1
      isplitl [H2]
      · iexists (k0_pay3 _ (win0_1.fill (grid0.coords t) d1 (iblk m c 1 t)))
        rw [win0_2.fill_congr_cut (grid0.coords t) (pay3_indep hI c t d1 _)]
        iapply (owns_of_read c _ _ _ (last_cos c _ _ _ _ _ _ _ _ _ _ _ _ _ _ _ _ _ _ _ _ f2))
        iexact H2
      iapply (owns_of_read c _ _ _ ((last_out c _ _ _ _ _ _ _ _ _ _ _ _ _ _ _ _ _ _ _ _ f3).trans (congrArg k0_pay7 (pay6_indep hI c t d1 _ _))))
      iexact H3
    · rw [Dat.leaves_idle (dats m 0 c) 3 t (idle_3 t h48) (noFlush_3 t h48)]
      rw [stAt_mid m c t h0 h48]; unfold stMid; dsimp only
      iintro ⟨⟨⟨HS, HX⟩, HR⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) scSum (Memref.isWhole_whole _) scXn (Memref.isWhole_whole _)
        (fun h => h0 ((hcondReset t).mp h)) ((hcondAcc t).mpr h48) (fun h => h48 ((hcondLast t).mp h))
        (iblk m c 0 t) (win0_1.fill (grid0.coords t) d1 (iblk m c 1 t)) _ _).2.2 _ Set.univ _)
      isplitl [H0]; · iexact H0
      isplitl [H1]; · iexact H1
      isplitl [H2]; · iexists _; iexact H2
      isplitl [H3]; · iexact H3
      isplitl [HS]; · iexact HS
      isplitl [HX]; · iexact HX
      iintro ⟨H0, H1, ⟨%f2, H2⟩, H3, ⟨%fs, HS⟩, HX⟩
      isplitl [HS HX HR]
      · isplitl [HS HX]
        · isplitl [HS]
          · iapply (owns_of_read c _ _ _ ((mid_sum c _ _ _ _ _ _ _ _ _ _ _ _ _ _ _ _ _ _ _ _ fs).trans (pay5_indep m c t h48 d1 _ _)))
            iexact HS
          · iexact HX
        · iexact HR
      isplitl [Ho]; · iexact Ho
      isplitl [H0]; · iexact H0
      isplitl [H1]
      · iexists (win0_1.fill (grid0.coords t) d1 (iblk m c 1 t)); rw [fill_wz m c t d1]; iexact H1
      isplitl [H2]
      · iexists (k0_pay3 _ (win0_1.fill (grid0.coords t) d1 (iblk m c 1 t)))
        rw [win0_2.fill_congr_cut (grid0.coords t) (pay3_indep hI c t d1 _)]
        iapply (owns_of_read c _ _ _ (mid_cos c _ _ _ _ _ _ _ _ _ _ _ _ _ _ _ _ _ _ _ _ f2))
        iexact H2
      iexists _; iexact H3

/-- The library's body obligation, each window described on the part its transfers move, at every point. -/
theorem body_obligation (hI : Indep97 m) (c : Dev nD) :
    BodyObligationLoose (dats (F := F) m 0 c) (defs₀ (F := F)) Variants.none () Set.univ := fun t => by
  rw [bigSep_W0, bigSep_W0]
  exact sound_body m hI c t

/-! ## The run and the frame -/

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

set_option backward.isDefEq.respectTransparency.types false in
/-- From any memory with zero counters, every weakly fair execution of @main terminates, every array of the pipeline
    ends at what the proof data compute, and every other unscoped buffer as the host operations after the region
    leave it. -/
theorem run_main (hI : Indep97 m) : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m hI c) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hin := hin m) (hout := hout m)

/-- The frame of the idealised kernel: every weakly fair execution of @main terminates and the three argument
    arrays end as launched. -/
theorem frame (hI : Indep97 m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hI)

end Cert.KernelIdeal.Body

end
-- ==== Proof.Spec.lean ====
/-
  The mathematics both programs compute, over the extended reals.

  From x : [1024, 512], W : [512, 100000]: every row of x and every column of W is divided by its Euclidean norm
  clamped below by a small constant, the two normalised matrices are multiplied, and the product is clipped to
  [-1, 1]: the cosine matrix cos : [1024, 100000]. The second result is a function of cos, of the row sums of
  exp(30·cos) and of the labels.

  The reference clamps the norm, the square root of the sum of squares, below by the f32 nearest 1e-12, `Dc`, and
  divides. The kernel clamps the sum of squares below by the constant named `Kc`, which denotes the exact square of
  `Dc`, and multiplies by the reciprocal square root. The kernel sums exp(30·cos) tile by tile: 98 tiles of 1024
  columns, the columns at or past 100000 of the last tile replaced by zero, the first 49 tiles into one partial sum
  and the last 49 into another.
-/
import Idealize.ShloMosaic.PureOps.Ideal
import Idealize.ShloMosaic.Lib.ValueIdx

noncomputable section

open scoped BigOperators

namespace Cert.Spec

open Idealize.ShloMosaic Idealize.ShloMosaic.ValueIdx

/-- Contents of x, of W, and of a [1024, 100000] matrix, as functions of the index. -/
abbrev XArr := (⟨2, ![1024, 512]⟩ : Shape).Idx → EReal
abbrev WArr := (⟨2, ![512, 100000]⟩ : Shape).Idx → EReal
abbrev CArr := (⟨2, ![1024, 100000]⟩ : Shape).Idx → EReal

/-- The value the kernel's named lower clamp denotes: 5316911940649 / 2^122, the square of `Dc`. -/
def Kc : EReal := ((5316911940649 / 5316911983139663491615228241121378304 : ℝ) : EReal)
/-- The reference's lower clamp of a norm: the f32 nearest 1e-12, which is 2305843 / 2^61. -/
def Dc : EReal := Ideal.ofBits .f32 0x2B8CBCCC#32
def one : EReal := Ideal.ofBits .f32 0x3F800000#32
def negOne : EReal := Ideal.ofBits .f32 0xBF800000#32
def thirty : EReal := Ideal.ofBits .f32 0x41F00000#32

/-- A row's and a column's sum of squares. -/
def rowSS (x : XArr) (b : Fin 1024) : EReal := ∑ d : Fin 512, x (ix2 b d) * x (ix2 b d)
def colSS (W : WArr) (c : Fin 100000) : EReal := ∑ d : Fin 512, W (ix2 d c) * W (ix2 d c)

/-! ## As the kernel computes -/

def xnK (x : XArr) (b : Fin 1024) (d : Fin 512) : EReal := x (ix2 b d) * Ideal.rsqrt (max (rowSS x b) Kc)
def wnK (W : WArr) (d : Fin 512) (c : Fin 100000) : EReal := W (ix2 d c) * Ideal.rsqrt (max (colSS W c) Kc)
def cosK (x : XArr) (W : WArr) (b : Fin 1024) (c : Fin 100000) : EReal :=
  min one (max negOne (∑ d : Fin 512, xnK x b d * wnK W d c))

/-- The sum over tile `t`'s 1024 columns of exp(30·cos) in row `b`, the columns past the matrix replaced by zero. -/
def tileSumK (x : XArr) (W : WArr) (b : Fin 1024) (t : Fin 98) : EReal :=
  ∑ k : Fin 1024, if h : t.val * 1024 + k.val < 100000 then Ideal.exp (thirty * cosK x W b ⟨t.val * 1024 + k.val, h⟩) else 0
/-- Core `h`'s partial sum: its 49 tiles. -/
def partK (x : XArr) (W : WArr) (h : Fin 2) (b : Fin 1024) : EReal :=
  ∑ j : Fin 49, tileSumK x W b ⟨h.val * 49 + j.val, by have := h.isLt; have := j.isLt; omega⟩

/-! ## As the reference computes -/

def xnR (x : XArr) (b : Fin 1024) (d : Fin 512) : EReal := Ideal.div (x (ix2 b d)) (max Dc (Ideal.sqrt (rowSS x b)))
def wnR (W : WArr) (d : Fin 512) (c : Fin 100000) : EReal := Ideal.div (W (ix2 d c)) (max Dc (Ideal.sqrt (colSS W c)))
def cosR (x : XArr) (W : WArr) (b : Fin 1024) (c : Fin 100000) : EReal :=
  min one (max negOne (∑ d : Fin 512, xnR x b d * wnR W d c))
/-- Row `b`'s sum of exp(30·cos) over all columns. -/
def rowExpSum (cos : Fin 1024 → Fin 100000 → EReal) (b : Fin 1024) : EReal :=
  ∑ c : Fin 100000, Ideal.exp (thirty * cos b c)

/-- Every entry a real number. -/
def FiniteX (x : XArr) : Prop := ∀ i, ∃ r : ℝ, x i = (r : EReal)
def FiniteW (W : WArr) : Prop := ∀ i, ∃ r : ℝ, W i = (r : EReal)

end Cert.Spec

end
-- ==== Proof.KI.Payloads.lean ====
/-
  The kernel body's seven pure values, each read at one index over the extended reals.

  Every row of x and every column of the W tile is multiplied by the reciprocal square root of its sum of squares
  clamped below by the named constant; the product of the two normalised blocks is clipped to [-1, 1]; the row sums of
  exp(30·cos) over the tile's 1024 columns, with the columns at or past 100000 replaced by zero in the masked form, are
  added to the running partial sums.
-/
import proofs.«402459_j22746146800347_3_alg».proof.Proof.Gen.KernelIdeal.Skeleton
import proofs.«402459_j22746146800347_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The named lower clamp denotes 5316911940649 / 2^122. -/
theorem named_Kc : Named.named (F := Ideal) Cert.KernelIdeal.κ "fold_c_5316911940649_5316911983139663491615228241121378304" (φ := .f32) 0x179ABE15#32 = Cert.Spec.Kc := by
  unfold Cert.Spec.Kc
  exact IdealRules.named_const.ideal_named_scalar _ _ _ _ rfl

/-! ## Sums along one axis of a matrix -/

/-- The sum along axis 0 of an [m, n] matrix, at column k, is the sum over the rows of column k. -/
theorem sum_axis0_apply {m n : Nat} (v : FVec Ideal ⟨2, ![m, n]⟩ .f32) (h : (⟨2, ![m, n]⟩ : Shape).Reduces [0] ⟨1, ![n]⟩)
    (hφ : FKind.Formats .f32) (hacc : (0x00000000#32 : BitVec 32) = FKind.add.neutral .f32 hφ) (k : Fin n) :
    multiReduction .add [0] ⟨1, ![n]⟩ v 0x00000000#32 h hφ hacc (ix1 k) = ∑ d : Fin m, v (ix2 d k) := by
  refine (Ideal.multiReduction_add_single v 0x00000000#32 h hφ hacc (ix1 k)).trans ?_
  refine Finset.sum_congr rfl fun d _ => congrArg v ?_
  funext a
  refine Fin.ext ?_
  match a with
  | ⟨0, _⟩ => rfl
  | ⟨1, _⟩ => rfl

/-- The sum along axis 1 of an [m, n] matrix, at row b, is the sum over the columns of row b. -/
theorem sum_axis1_apply {m n : Nat} (v : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (b : Fin m) :
    multiReduction .add [1] ⟨1, ![m]⟩ v 0x00000000#32 h hφ hacc (ix1 b) = ∑ d : Fin n, v (ix2 b d) := by
  refine (Ideal.multiReduction_add_single v 0x00000000#32 h hφ hacc (ix1 b)).trans ?_
  refine Finset.sum_congr rfl fun d _ => congrArg v ?_
  funext a
  refine Fin.ext ?_
  match a with
  | ⟨0, _⟩ => rfl
  | ⟨1, _⟩ => rfl

/-! ## Layout operations at an index -/

/-- An [a] vector viewed as an [a, 1] column reads, at (i, z), the vector at i. -/
theorem shapeCast_a_a1_apply {α : Type} {a : Nat} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- An [a, 1] column broadcast to [a, b] reads, at (p, c), the column at (p, 0). -/
theorem broadcastTo_a1_ab_apply {α : Type} {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of the two blocks at an index -/

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into the zero block, at (b, k): the sum over the 512 contracted coordinates of row b of the left
    block times column k of the right block. -/
theorem matmul_zero_apply {φ₁ φ₂ : FTy} (l : FVec Ideal S1024x512 φ₁) (r : FVec Ideal S512x1024 φ₂) (b k : Fin 1024) :
    FloatOps.matmul dot_S1024x512_S512x1024_S1024x1024_1_0_0_1_n_n none l r (constant S1024x1024 .f32 0x00000000#32) (ix2 b k)
      = ∑ d : Fin 512, l (ix2 b d) * r (ix2 d k) := by
  rw [Ideal.matmul_constant_zero_apply, ← Equiv.sum_comp (contrEquiv1 dot_S1024x512_S512x1024_S1024x1024_1_0_0_1_n_n 512 rfl rfl).symm]
  refine Finset.sum_congr rfl fun d _ => ?_
  have hd := contrEquiv1_symm_val dot_S1024x512_S512x1024_S1024x1024_1_0_0_1_n_n 512 rfl rfl d
  have el : dot_S1024x512_S512x1024_S1024x1024_1_0_0_1_n_n.lhsIdx (ix2 b k) ((contrEquiv1 dot_S1024x512_S512x1024_S1024x1024_1_0_0_1_n_n 512 rfl rfl).symm d) = ix2 b d := funext fun a => Fin.ext (by
    match a with
    | ⟨0, _⟩ => exact lhs_dot_0 _ _
    | ⟨1, _⟩ => exact (lhs_dot_1 _ _).trans hd)
  have er : dot_S1024x512_S512x1024_S1024x1024_1_0_0_1_n_n.rhsIdx (ix2 b k) ((contrEquiv1 dot_S1024x512_S512x1024_S1024x1024_1_0_0_1_n_n 512 rfl rfl).symm d) = ix2 d k := funext fun a => Fin.ext (by
    match a with
    | ⟨0, _⟩ => exact (rhs_dot_0 _ _).trans hd
    | ⟨1, _⟩ => exact rhs_dot_1 _ _)
  rw [el, er]

/-! ## The payloads -/

/-- A column of the W tile times the reciprocal square root of its clamped sum of squares. -/
theorem wn_apply (w : FVec Ideal S512x1024 .f32) (h1 : S512x1024.Reduces [0] S1024) (h2 : S1024.ShapeCasts S1x1024)
    (h3 : S1x1024.Broadcasts S512x1024) (hφ : FKind.Formats .f32) (hacc : (0x00000000#32 : BitVec 32) = FKind.add.neutral .f32 hφ)
    (c : EReal) (d : Fin 512) (k : Fin 1024) :
    mulf w (broadcastTo S512x1024 (rsqrt (maximumf (shapeCast S1x1024 (multiReduction .add [0] S1024 (mulf w w) 0x00000000#32 h1 hφ hacc) h2)
        (broadcast S1x1024 (c : Ideal .f32)))) h3) (ix2 d k)
      = w (ix2 d k) * Ideal.rsqrt (max (∑ d' : Fin 512, w (ix2 d' k) * w (ix2 d' k)) c) := by
  refine congrArg (w (ix2 d k) * ·) ?_
  refine (broadcastTo_1b_ab_apply _ h3 d k).trans ?_
  refine congrArg (fun t => Ideal.rsqrt (max t c)) ?_
  refine (shapeCast_a_1a_apply _ h2 (0 : Fin 1) k).trans ?_
  exact sum_axis0_apply (mulf w w) h1 hφ hacc k

theorem pay3_apply (xn : Vec Ideal S1024x512 .bf16) (w : Vec Ideal S512x1024 .f32) (b k : Fin 1024) :
    k0_pay3 (F := Ideal) xn w (ix2 b k) = min Cert.Spec.one (max Cert.Spec.negOne (∑ d : Fin 512, xn (ix2 b d) * (w (ix2 d k) * Ideal.rsqrt (max (∑ d' : Fin 512, w (ix2 d' k) * w (ix2 d' k)) Cert.Spec.Kc)))) := by
  unfold k0_pay3
  refine congrArg (fun t => min Cert.Spec.one (max Cert.Spec.negOne t)) ?_
  refine (matmul_zero_apply _ _ b k).trans ?_
  refine Finset.sum_congr rfl fun d _ => congrArg (xn (ix2 b d) * ·) ?_
  refine (wn_apply w _ _ _ _ _ _ d k).trans ?_
  rw [named_Kc]

/-- A row of x times the reciprocal square root of its clamped sum of squares. -/
theorem xn_apply (x : FVec Ideal S1024x512 .f32) (h1 : S1024x512.Reduces [1] S1024) (h2 : S1024.ShapeCasts S1024x1)
    (h3 : S1024x1.Broadcasts S1024x512) (hφ : FKind.Formats .f32) (hacc : (0x00000000#32 : BitVec 32) = FKind.add.neutral .f32 hφ)
    (c : EReal) (b : Fin 1024) (d : Fin 512) :
    mulf x (broadcastTo S1024x512 (rsqrt (maximumf (shapeCast S1024x1 (multiReduction .add [1] S1024 (mulf x x) 0x00000000#32 h1 hφ hacc) h2)
        (broadcast S1024x1 (c : Ideal .f32)))) h3) (ix2 b d)
      = x (ix2 b d) * Ideal.rsqrt (max (∑ d' : Fin 512, x (ix2 b d') * x (ix2 b d')) c) := by
  refine congrArg (x (ix2 b d) * ·) ?_
  refine (broadcastTo_a1_ab_apply _ h3 b d).trans ?_
  refine congrArg (fun t => Ideal.rsqrt (max t c)) ?_
  refine (shapeCast_a_a1_apply _ h2 b (0 : Fin 1)).trans ?_
  exact sum_axis1_apply (mulf x x) h1 hφ hacc b

theorem pay1_apply (x : Vec Ideal S1024x512 .f32) (b : Fin 1024) (d : Fin 512) :
    k0_pay1 (F := Ideal) x (ix2 b d) = x (ix2 b d) * Ideal.rsqrt (max (∑ d' : Fin 512, x (ix2 b d') * x (ix2 b d')) Cert.Spec.Kc) := by
  unfold k0_pay1
  refine (congrFun (shapeCast_self _ _) _).trans ?_
  refine (xn_apply x _ _ _ _ _ _ b d).trans ?_
  rw [named_Kc]

theorem pay2_apply (b : Fin 1024) (z : Fin 1) : k0_pay2 (F := Ideal) (ix2 b z) = 0 := by
  unfold k0_pay2
  refine (congrFun (shapeCast_self _ _) _).trans ?_
  exact Ideal.ofBits_zero_f32

/-- exp(30·cos) at an index. -/
theorem pay4_apply (xn : Vec Ideal S1024x512 .bf16) (w : Vec Ideal S512x1024 .f32) (b k : Fin 1024) :
    k0_pay4 (F := Ideal) xn w (ix2 b k) = Ideal.exp (Cert.Spec.thirty * k0_pay3 (F := Ideal) xn w (ix2 b k)) := rfl

theorem pay5_apply (xn : Vec Ideal S1024x512 .bf16) (w : Vec Ideal S512x1024 .f32) (ls : Vec Ideal S1024x1 .f32) (b : Fin 1024) (z : Fin 1) :
    k0_pay5 (F := Ideal) xn w ls (ix2 b z) = ls (ix2 b z) + ∑ k : Fin 1024, Ideal.exp (Cert.Spec.thirty * k0_pay3 (F := Ideal) xn w (ix2 b k)) := by
  unfold k0_pay5
  refine (congrFun (shapeCast_self _ _) _).trans ?_
  refine congrArg (ls (ix2 b z) + ·) ?_
  refine (shapeCast_a_a1_apply _ _ b z).trans ?_
  refine (sum_axis1_apply _ _ _ _ b).trans ?_
  exact Finset.sum_congr rfl fun k _ => pay4_apply xn w b k

/-! ## The column mask of the last tile -/

/-- The 32-bit word ((a·49 + c)·1024 + k) compared signed with 100000: no step overflows for a below 2, c below 49 and k below
    1024, so the bit is the comparison of the natural numbers. -/
theorem mask_word (a c k : Nat) (ha : a < 2) (hc : c < 49) (hk : k < 1024) :
    IntOp.cmpi .slt (IntOp.addi (Scalar.muli (Scalar.addi (Scalar.muli (BitVec.ofNat 32 a) 49#32) (BitVec.ofNat 32 c)) 1024#32) (BitVec.ofNat 32 k)) 100000#32
      = if (a * 49 + c) * 1024 + k < 100000 then 1#1 else 0#1 := by
  have e : IntOp.addi (Scalar.muli (Scalar.addi (Scalar.muli (BitVec.ofNat 32 a) 49#32) (BitVec.ofNat 32 c)) 1024#32) (BitVec.ofNat 32 k)
      = BitVec.ofNat 32 ((a * 49 + c) * 1024 + k) := by
    show (BitVec.ofNat 32 a * BitVec.ofNat 32 49 + BitVec.ofNat 32 c) * BitVec.ofNat 32 1024 + BitVec.ofNat 32 k = _
    rw [BitVec.ofNat_mul_ofNat, BitVec.ofNat_add_ofNat, BitVec.ofNat_mul_ofNat, BitVec.ofNat_add_ofNat]
  rw [e]
  have hn : (a * 49 + c) * 1024 + k < 101376 := by omega
  generalize (a * 49 + c) * 1024 + k = n at hn ⊢
  have hnat : (BitVec.ofNat 32 n).toNat = n := by rw [BitVec.toNat_ofNat]; exact Nat.mod_eq_of_lt (by omega)
  have hint : (BitVec.ofNat 32 n).toInt = (n : Int) := by
    rw [BitVec.toInt_eq_toNat_of_lt (by rw [hnat]; omega), hnat]
  show BitVec.ofBool ((BitVec.ofNat 32 n).slt 100000#32) = _
  rw [BitVec.slt_eq_decide, hint]
  by_cases h : n < 100000
  · rw [if_pos h, decide_eq_true (show (n : Int) < (100000#32 : BitVec 32).toInt by show (n : Int) < 100000; omega)]; rfl
  · rw [if_neg h, decide_eq_false (show ¬ (n : Int) < (100000#32 : BitVec 32).toInt by show ¬ (n : Int) < 100000; omega)]; rfl

/-- A block whose column k is kept where the tile's first column plus k is below 100000 and replaced by zero elsewhere. -/
theorem masked_apply (i0 i1 : Nat) (h0 : i0 < 2) (h1 : i1 < 49) (hι : S1024x1024.Iotas .tc 32 [1]) (e : FVec Ideal S1024x1024 .f32) (b k : Fin 1024) :
    select (cmpi .slt (addi (broadcast S1024x1024 (Scalar.muli (Scalar.addi (Scalar.muli (BitVec.ofNat 32 i0) 49#32) (BitVec.ofNat 32 i1)) 1024#32))
        (iota .tc S1024x1024 32 [1] hι)) (broadcast S1024x1024 100000#32)) e (broadcast S1024x1024 (Scalar.ofBits (F := Ideal) .f32 0x00000000#32)) (ix2 b k)
      = if (i0 * 49 + i1) * 1024 + k.val < 100000 then e (ix2 b k) else 0 := by
  have hi : iota .tc S1024x1024 32 [1] hι (ix2 b k) = BitVec.ofNat 32 k.val := iota_single_apply _ _ _ _ _ _
  show Scalar.select (IntOp.cmpi .slt (IntOp.addi (Scalar.muli (Scalar.addi (Scalar.muli (BitVec.ofNat 32 i0) 49#32) (BitVec.ofNat 32 i1)) 1024#32)
      (iota .tc S1024x1024 32 [1] hι (ix2 b k))) 100000#32) (e (ix2 b k)) (Ideal.ofBits .f32 0x00000000#32) = _
  rw [hi, Ideal.ofBits_zero_f32, mask_word i0 i1 k.val h0 h1 k.isLt]
  split
  · exact select_one _ _
  · exact select_zero _ _

theorem pay6_apply (i : grid0.Coords) (xn : Vec Ideal S1024x512 .bf16) (w : Vec Ideal S512x1024 .f32) (ls : Vec Ideal S1024x1 .f32) (b : Fin 1024) (z : Fin 1) :
    k0_pay6 (F := Ideal) i xn w ls (ix2 b z) = ls (ix2 b z) + ∑ k : Fin 1024, (if ((i 0).val * 49 + (i 1).val) * 1024 + k.val < 100000 then Ideal.exp (Cert.Spec.thirty * k0_pay3 (F := Ideal) xn w (ix2 b k)) else 0) := by
  unfold k0_pay6
  refine (congrFun (shapeCast_self _ _) _).trans ?_
  refine congrArg (ls (ix2 b z) + ·) ?_
  refine (shapeCast_a_a1_apply _ _ b z).trans ?_
  refine (sum_axis1_apply _ _ _ _ b).trans ?_
  refine Finset.sum_congr rfl fun k _ => ?_
  refine (masked_apply (i 0).val (i 1).val (i 0).isLt (i 1).isLt _ (k0_pay4 (F := Ideal) xn w) b k).trans ?_
  rw [pay4_apply]

theorem pay7_apply (v : Vec Ideal S1024x1 .f32) (b : Fin 1024) :
    k0_pay7 (F := Ideal) v (ix3 (0 : Fin 1) b (0 : Fin 1)) = v (ix2 b (0 : Fin 1)) := by
  unfold k0_pay7
  exact shapeCast_ab_1ab_apply v _ (0 : Fin 1) b (0 : Fin 1)

end Cert.KernelIdeal.Pay

end
-- ==== Proof.KI.Indep.lean ====
/-
  At the grid's last point the column tile overhangs the matrix: its buffer's columns 672 … 1023 hold words nothing
  names. Column k of the clipped product depends on column k of the tile only, so the block's named columns do not
  depend on those words; and the masked row sums replace exactly those columns by zero.
-/
import proofs.«402459_j22746146800347_3_alg».proof.Proof.KI.Data
import proofs.«402459_j22746146800347_3_alg».proof.Proof.KI.Payloads
import Idealize.ShloMosaic.Lib.ValueIdx
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The extents of what the transfers move at the last point -/

theorem end_tile : ((grid0.coords tEnd) 0).val * 49 + ((grid0.coords tEnd) 1).val = 97 := by decide

theorem xsize1_end_0 : win0_1.xsize (grid0.coords tEnd) ⟨0, by decide⟩ = 512 := by decide
theorem xsize1_end_1 : win0_1.xsize (grid0.coords tEnd) ⟨1, by decide⟩ = 672 := by decide
theorem xsize2_end_0 : win0_2.xsize (grid0.coords tEnd) ⟨0, by decide⟩ = 1024 := by decide
theorem xsize2_end_1 : win0_2.xsize (grid0.coords tEnd) ⟨1, by decide⟩ = 672 := by decide

/-! ## The clipped product reads one column of the tile -/

/-- Column k of the clipped product depends on column k of the tile only. -/
theorem pay3_congr_col (xn : Vec Ideal S1024x512 .bf16) (w1 w2 : Vec Ideal S512x1024 .f32) (b k : Fin 1024)
    (h : ∀ d' : Fin 512, w1 (ix2 d' k) = w2 (ix2 d' k)) :
    k0_pay3 (F := Ideal) xn w1 (ix2 b k) = k0_pay3 (F := Ideal) xn w2 (ix2 b k) := by
  rw [Pay.pay3_apply, Pay.pay3_apply]
  simp only [h]

/-- On a column the transfer moves, the tile's buffer holds the tile whatever it held before. -/
theorem fill_col (c : Dev nD) (d : S512x1024.Idx → Elt Ideal .f32) (d' : Fin 512) (k : Fin 1024) (hk : k.val < 672) :
    win0_1.fill (grid0.coords tEnd) d (iblk m c 1 tEnd) (ix2 d' k) = wz m c tEnd (ix2 d' k) := by
  have hm : win0_1.moved (grid0.coords tEnd) (ix2 d' k) = true :=
    (win0_1.moved_iff (grid0.coords tEnd) (ix2 d' k)).mpr fun a => by
      match a with
      | ⟨0, _⟩ => show d'.val < win0_1.xsize (grid0.coords tEnd) ⟨0, by decide⟩; rw [xsize1_end_0]; exact d'.isLt
      | ⟨1, _⟩ => show k.val < win0_1.xsize (grid0.coords tEnd) ⟨1, by decide⟩; rw [xsize1_end_1]; exact hk
  unfold wz Pipeline.Window.fill
  rw [dif_pos hm, dif_pos hm]

theorem indep97 : Indep97 (F := Ideal) m where
  cos := fun c d xn => by
    funext j
    have hk : (j ⟨1, by decide⟩).val < 672 := by
      have h := (j ⟨1, by decide⟩).isLt
      exact Nat.lt_of_lt_of_eq h xsize2_end_1
    have hb : (j ⟨0, by decide⟩).val < 1024 := by
      have h := (j ⟨0, by decide⟩).isLt
      exact Nat.lt_of_lt_of_eq h xsize2_end_0
    have hj : win0_2.xinj (grid0.coords tEnd) j = ix2 (⟨(j ⟨0, by decide⟩).val, hb⟩ : Fin 1024) (⟨(j ⟨1, by decide⟩).val, by omega⟩ : Fin 1024) :=
      funext fun a => Fin.ext (by match a with | ⟨0, _⟩ => rfl | ⟨1, _⟩ => rfl)
    show k0_pay3 (F := Ideal) xn (win0_1.fill (grid0.coords tEnd) d (iblk m c 1 tEnd)) (win0_2.xinj (grid0.coords tEnd) j)
      = k0_pay3 (F := Ideal) xn (wz m c tEnd) (win0_2.xinj (grid0.coords tEnd) j)
    rw [hj]
    exact pay3_congr_col xn _ _ _ _ fun d' => fill_col m c d d' _ hk
  sum := fun c d xn ls => by
    funext j
    obtain ⟨b, z, rfl⟩ : ∃ (b : Fin 1024) (z : Fin 1), j = ix2 b z := ⟨j 0, j 1, eq_ix2 j⟩
    rw [Pay.pay6_apply, Pay.pay6_apply]
    refine congrArg (ls (ix2 b z) + ·) (Finset.sum_congr rfl fun k _ => ?_)
    rw [end_tile]
    by_cases hk : 97 * 1024 + k.val < 100000
    · rw [if_pos hk, if_pos hk, pay3_congr_col xn _ _ b k fun d' => fill_col m c d d' k (by omega)]
    · rw [if_neg hk, if_neg hk]

end Cert.KernelIdeal.Body

end
-- ==== Proof.KI.ValAt.lean ====
/-
  The buffers' contents after each grid point, read over the extended reals at an index: the normalised rows are
  the rows of x times the reciprocal square root of the clamped sum of squares; the cosine block at point t is the
  cosine matrix's columns t·1024 … t·1024 + 1023.
-/
import proofs.«402459_j22746146800347_3_alg».proof.Proof.KI.Data
import proofs.«402459_j22746146800347_3_alg».proof.Proof.KI.Payloads
import proofs.«402459_j22746146800347_3_alg».proof.Proof.Spec
import Idealize.ShloMosaic.Lib.ValueIdx
import Idealize.ShloMosaic.Lib.Pipeline.Value
set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The two input windows' blocks in their arrays -/

/-- The rows' window is at block index (0, 0) at every point. -/
theorem index0_facts : ∀ t : Fin cfg0.N, win0_0.index t ⟨0, by decide⟩ = 0 ∧ win0_0.index t ⟨1, by decide⟩ = 0 :=
  (by decide +kernel : ∀ t : Fin grid0.N, win0_0.index t ⟨0, by decide⟩ = 0 ∧ win0_0.index t ⟨1, by decide⟩ = 0)

/-- The column tile's window at point t is at block index (0, t). -/
theorem index1_facts : ∀ t : Fin cfg0.N, win0_1.index t ⟨0, by decide⟩ = 0 ∧ win0_1.index t ⟨1, by decide⟩ = t.val :=
  (by decide +kernel : ∀ t : Fin grid0.N, win0_1.index t ⟨0, by decide⟩ = 0 ∧ win0_1.index t ⟨1, by decide⟩ = t.val)

/-- What the fetch of the column tile moves at point t: all 512 rows, and the columns of the tile that are columns of W. -/
theorem xsize1_facts : ∀ t : Fin cfg0.N, win0_1.xsize (grid0.coords t) ⟨0, by decide⟩ = 512
    ∧ win0_1.xsize (grid0.coords t) ⟨1, by decide⟩ = min 1024 (100000 - t.val * 1024) :=
  (by decide +kernel : ∀ t : Fin grid0.N, win0_1.xsize (grid0.coords t) ⟨0, by decide⟩ = 512
    ∧ win0_1.xsize (grid0.coords t) ⟨1, by decide⟩ = min 1024 (100000 - t.val * 1024))

/-- The rows' block read off x at (b, d) is x at (b, d). -/
theorem iblk0_apply (c : Dev nD) (t : Fin cfg0.N) (b : Fin 1024) (d : Fin 512) :
    (iblk m c 0 t : Vec Ideal S1024x512 .f32) (ix2 b d) = (V m c main_arg0 : Cert.Spec.XArr) (ix2 b d) := by
  unfold iblk
  rw [View.read_apply]
  show V m c main_arg0 (((cfg0.win 0).blk t).view.emb (ix2 b d)) = _
  refine congrArg (V m c main_arg0) (funext fun a => Fin.ext ?_)
  match a with
  | ⟨0, _⟩ =>
    show win0_0.index t ⟨0, by decide⟩ * 1024 + 1 * b.val = b.val
    rw [(index0_facts t).1]; omega
  | ⟨1, _⟩ =>
    show win0_0.index t ⟨1, by decide⟩ * 512 + 1 * d.val = d.val
    rw [(index0_facts t).2]; omega

/-- The column tile's block read off W at an index y is W at row y 0 and column t·1024 + y 1. -/
theorem iblk1_apply (c : Dev nD) (t : Fin cfg0.N) (y : ((cfg0.win 1).xblock (cfg0.grid.coords t)).Idx) (d : Fin 512) (col : Fin 100000)
    (h0 : (y ⟨0, Nat.zero_lt_two⟩).val = d.val) (h1 : t.val * 1024 + (y ⟨1, Nat.one_lt_two⟩).val = col.val) :
    iblk m c 1 t y = (V m c main_arg1 : Cert.Spec.WArr) (ix2 d col) := by
  unfold iblk
  rw [View.read_apply]
  show V m c main_arg1 (((cfg0.win 1).blk t).view.emb y) = _
  refine congrArg (V m c main_arg1) (funext fun a => Fin.ext ?_)
  match a with
  | ⟨0, _⟩ =>
    show win0_1.index t ⟨0, by decide⟩ * 512 + 1 * (y ⟨0, Nat.zero_lt_two⟩).val = d.val
    rw [(index1_facts t).1, Nat.zero_mul, Nat.zero_add, Nat.one_mul]; exact h0
  | ⟨1, _⟩ =>
    show win0_1.index t ⟨1, by decide⟩ * 1024 + 1 * (y ⟨1, Nat.one_lt_two⟩).val = col.val
    rw [(index1_facts t).2, Nat.one_mul]; exact h1

/-- The column tile at point `t`, zero past the matrix, at an index: column `t·1024 + k` of W where that is a column. -/
theorem wz_at (c : Dev nD) (t : Fin cfg0.N) (d : Fin 512) (k : Fin 1024) :
    wz m c t (ix2 d k) = if h : t.val * 1024 + k.val < 100000 then (V m c main_arg1 : Cert.Spec.WArr) (ix2 d ⟨t.val * 1024 + k.val, h⟩) else (0 : EReal) := by
  have hN : t.val < 98 := Nat.lt_of_lt_of_eq t.isLt N_0
  unfold wz Pipeline.Window.fill
  by_cases hlt : t.val * 1024 + k.val < 100000
  · have hmv : win0_1.moved (grid0.coords t) (ix2 d k) = true := (win0_1.moved_iff _ _).mpr fun a => by
      match a with
      | ⟨0, _⟩ => show d.val < win0_1.xsize (grid0.coords t) ⟨0, by decide⟩; rw [(xsize1_facts t).1]; exact d.isLt
      | ⟨1, _⟩ => show k.val < win0_1.xsize (grid0.coords t) ⟨1, by decide⟩; rw [(xsize1_facts t).2]; have := k.isLt; omega
    rw [dif_pos hmv, dif_pos hlt]
    exact iblk1_apply m c t _ d ⟨_, hlt⟩ rfl rfl
  · have hmv : ¬win0_1.moved (grid0.coords t) (ix2 d k) = true := fun hm => hlt (by
      have h1 := (win0_1.moved_iff _ _).mp hm ⟨1, by decide⟩
      have h1' : k.val < win0_1.xsize (grid0.coords t) ⟨1, by decide⟩ := h1
      rw [(xsize1_facts t).2] at h1'
      omega)
    rw [dif_neg hmv, dif_neg hlt]
    exact Ideal.ofBits_zero_f32

/-! ## The normalised rows -/

/-- After a point whose tile counter is zero the second scratch buffer holds the normalised rows of x. -/
theorem stFirst_xn_at (c : Dev nD) (t : Fin cfg0.N) (b : Fin 1024) (d : Fin 512) :
    (stFirst m c t).xn (ix2 b d) = Cert.Spec.xnK (V m c main_arg0) b d := by
  show k0_pay1 (F := Ideal) (iblk m c 0 t) (ix2 b d) = _
  rw [Pay.pay1_apply]
  unfold Cert.Spec.xnK Cert.Spec.rowSS
  simp only [iblk0_apply]

theorem xn_at_nat (c : Dev nD) (b : Fin 1024) (d : Fin 512) :
    ∀ (n : ℕ) (hn : n < cfg0.N), (stAt m c n hn).xn (ix2 b d) = Cert.Spec.xnK (V m c main_arg0) b d := by
  intro n
  induction n with
  | zero => intro hn; exact stFirst_xn_at m c ⟨0, hn⟩ b d
  | succ n ih =>
    intro hn
    by_cases h0 : (n + 1) % 49 = 0
    · rw [stAt_first m c ⟨n + 1, hn⟩ h0]; exact stFirst_xn_at m c ⟨n + 1, hn⟩ b d
    · by_cases h1 : (n + 1) % 49 = 48
      · rw [stAt_last m c ⟨n + 1, hn⟩ h0 h1]
        exact ih _
      · rw [stAt_mid m c ⟨n + 1, hn⟩ h0 h1]
        exact ih _

/-- The normalised rows after any point. -/
theorem xn_at (c : Dev nD) (t : Fin cfg0.N) (b : Fin 1024) (d : Fin 512) :
    (stAt m c t.val t.isLt).xn (ix2 b d) = Cert.Spec.xnK (V m c main_arg0) b d :=
  xn_at_nat m c b d t.val t.isLt

/-! ## The cosine block -/

/-- After every point the cosine block is the clipped product of the normalised rows the point leaves and its column tile. -/
theorem stAt_cos_eq (c : Dev nD) (t : Fin cfg0.N) :
    (stAt m c t.val t.isLt).cos = k0_pay3 (F := Ideal) (stAt m c t.val t.isLt).xn (wz m c t) := by
  by_cases h0 : t.val % 49 = 0
  · rw [stAt_first m c t h0]; rfl
  · by_cases h1 : t.val % 49 = 48
    · rw [stAt_last m c t h0 h1]; rfl
    · rw [stAt_mid m c t h0 h1]; rfl

/-- The clipped product of the normalised rows and the point's column tile, on a column inside the matrix. -/
theorem pay3_wz_at (c : Dev nD) (t : Fin cfg0.N) (xn : Vec Ideal S1024x512 .bf16)
    (hxn : ∀ b d, xn (ix2 b d) = Cert.Spec.xnK (V m c main_arg0) b d)
    (b : Fin 1024) (k : Fin 1024) (h : t.val * 1024 + k.val < 100000) :
    k0_pay3 (F := Ideal) xn (wz m c t) (ix2 b k) = Cert.Spec.cosK (V m c main_arg0) (V m c main_arg1) b ⟨t.val * 1024 + k.val, h⟩ := by
  rw [Pay.pay3_apply]
  unfold Cert.Spec.cosK Cert.Spec.wnK Cert.Spec.colSS
  simp only [hxn, wz_at, dif_pos h]

/-- The cosine block after point `t`, on the columns inside the matrix. -/
theorem cos_at (c : Dev nD) (t : Fin cfg0.N) (b : Fin 1024) (k : Fin 1024) (h : t.val * 1024 + k.val < 100000) :
    (stAt m c t.val t.isLt).cos (ix2 b k) = Cert.Spec.cosK (V m c main_arg0) (V m c main_arg1) b ⟨t.val * 1024 + k.val, h⟩ := by
  rw [stAt_cos_eq]
  exact pay3_wz_at m c t _ (fun b d => xn_at m c t b d) b k h

end Cert.KernelIdeal.Body

end
-- ==== Proof.KI.LsEnd.lean ====
/-
  The running sums of exp(30·cos) after a core's last grid point are the core's partial sum: they start from zero at
  the core's first point, every point adds its tile's row sums, and the last point adds its tile's with the columns
  past the matrix replaced by zero.
-/
import proofs.«402459_j22746146800347_3_alg».proof.Proof.KI.ValAt
set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## One tile's row sum -/

theorem N98 : cfg0.N = 98 := N_0

/-- The grid's coordinates of point t are (t / 49, t % 49). -/
theorem coords_lin : ∀ t : Fin cfg0.N, ((grid0.coords t) 0).val * 49 + ((grid0.coords t) 1).val = t.val := by decide +kernel

/-- Row b's sum of exp(30·cos) over tile n's columns inside the matrix; zero for n past the last tile. -/
def tileAt (c : Dev nD) (b : Fin 1024) (n : ℕ) : EReal :=
  if hn : n < 98 then Cert.Spec.tileSumK (V m c main_arg0) (V m c main_arg1) b ⟨n, hn⟩ else 0

/-- The cosine block after point t, summed over its columns inside the matrix, is tile t's row sum. -/
theorem tile_masked (c : Dev nD) (b : Fin 1024) (t : Fin cfg0.N) :
    ∑ k : Fin 1024, (if t.val * 1024 + k.val < 100000 then Ideal.exp (Cert.Spec.thirty * (stAt m c t.val t.isLt).cos (ix2 b k)) else 0)
      = tileAt m c b t.val := by
  have ht : t.val < 98 := Nat.lt_of_lt_of_eq t.isLt N98
  unfold tileAt
  rw [dif_pos ht]
  unfold Cert.Spec.tileSumK
  refine Finset.sum_congr rfl fun k _ => ?_
  by_cases h : t.val * 1024 + k.val < 100000
  · rw [if_pos h, dif_pos h, cos_at m c t b k h]
  · rw [if_neg h, dif_neg h]

/-- The same over whatever the cosine block is written as. -/
theorem tile_of_cos (c : Dev nD) (b : Fin 1024) (t : Fin cfg0.N) (C : Vec Ideal S1024x1024 .f32) (hC : (stAt m c t.val t.isLt).cos = C) :
    ∑ k : Fin 1024, (if t.val * 1024 + k.val < 100000 then Ideal.exp (Cert.Spec.thirty * C (ix2 b k)) else 0) = tileAt m c b t.val := by
  subst hC
  exact tile_masked m c b t

/-- Before the last tile every column is inside the matrix. -/
theorem tile_of_cos_full (c : Dev nD) (b : Fin 1024) (t : Fin cfg0.N) (ht : t.val ≤ 96) (C : Vec Ideal S1024x1024 .f32)
    (hC : (stAt m c t.val t.isLt).cos = C) :
    ∑ k : Fin 1024, Ideal.exp (Cert.Spec.thirty * C (ix2 b k)) = tileAt m c b t.val := by
  rw [← tile_of_cos m c b t C hC]
  exact Finset.sum_congr rfl fun k _ => (if_pos (by have := k.isLt; omega)).symm

/-! ## The running sums from one point to the next -/

theorem stAt_succ_mid (c : Dev nD) (n : ℕ) (hn : n + 1 < cfg0.N) (h0 : ¬(n + 1) % 49 = 0) (h1 : ¬(n + 1) % 49 = 48) :
    stAt m c (n + 1) hn = stMid m c ⟨n + 1, hn⟩ (stAt m c n (Nat.lt_of_succ_lt hn)) :=
  (if_neg h0).trans (if_neg h1)

theorem stAt_succ_last (c : Dev nD) (n : ℕ) (hn : n + 1 < cfg0.N) (h0 : ¬(n + 1) % 49 = 0) (h1 : (n + 1) % 49 = 48) :
    stAt m c (n + 1) hn = stLast m c ⟨n + 1, hn⟩ (stAt m c n (Nat.lt_of_succ_lt hn)) :=
  (if_neg h0).trans (if_pos h1)

/-- At a core's first point the sums start from zero: they are the tile's row sums. -/
theorem ls_first (c : Dev nD) (b : Fin 1024) (t : Fin cfg0.N) (h0 : t.val % 49 = 0) (z : Fin 1) :
    (stAt m c t.val t.isLt).ls (ix2 b z) = tileAt m c b t.val := by
  have ht : t.val < 98 := Nat.lt_of_lt_of_eq t.isLt N98
  have e := stAt_first m c t h0
  rw [e]
  show k0_pay5 (F := Ideal) (k0_pay1 (iblk m c 0 t)) (wz m c t) (k0_pay2 (F := Ideal)) (ix2 b z) = _
  rw [Pay.pay5_apply, Pay.pay2_apply, zero_add]
  exact tile_of_cos_full m c b t (by omega) _ (by rw [e]; rfl)

/-- A middle point adds its tile's row sums. -/
theorem ls_succ_mid (c : Dev nD) (b : Fin 1024) (n : ℕ) (hn : n + 1 < cfg0.N) (h0 : ¬(n + 1) % 49 = 0) (h1 : ¬(n + 1) % 49 = 48) (z : Fin 1) :
    (stAt m c (n + 1) hn).ls (ix2 b z) = (stAt m c n (Nat.lt_of_succ_lt hn)).ls (ix2 b z) + tileAt m c b (n + 1) := by
  have ht : n + 1 < 98 := Nat.lt_of_lt_of_eq hn N98
  have e := stAt_succ_mid m c n hn h0 h1
  rw [e]
  show k0_pay5 (F := Ideal) (stAt m c n (Nat.lt_of_succ_lt hn)).xn (wz m c ⟨n + 1, hn⟩) (stAt m c n (Nat.lt_of_succ_lt hn)).ls (ix2 b z) = _
  rw [Pay.pay5_apply]
  exact congrArg (_ + ·) (tile_of_cos_full m c b ⟨n + 1, hn⟩ (by show n + 1 ≤ 96; omega) _ (by show (stAt m c (n + 1) hn).cos = _; rw [e]; rfl))

/-- A core's last point adds its tile's row sums over the columns inside the matrix. -/
theorem ls_succ_last (c : Dev nD) (b : Fin 1024) (n : ℕ) (hn : n + 1 < cfg0.N) (h0 : ¬(n + 1) % 49 = 0) (h1 : (n + 1) % 49 = 48) (z : Fin 1) :
    (stAt m c (n + 1) hn).ls (ix2 b z) = (stAt m c n (Nat.lt_of_succ_lt hn)).ls (ix2 b z) + tileAt m c b (n + 1) := by
  have e := stAt_succ_last m c n hn h0 h1
  rw [e]
  show k0_pay6 (F := Ideal) (grid0.coords ⟨n + 1, hn⟩) (stAt m c n (Nat.lt_of_succ_lt hn)).xn (wz m c ⟨n + 1, hn⟩) (stAt m c n (Nat.lt_of_succ_lt hn)).ls (ix2 b z) = _
  rw [Pay.pay6_apply, coords_lin ⟨n + 1, hn⟩]
  exact congrArg (_ + ·) (tile_of_cos m c b ⟨n + 1, hn⟩ _ (by show (stAt m c (n + 1) hn).cos = _; rw [e]; rfl))

/-- After the (j+1)-th point of the core whose first point is a (a multiple of 49), the running sums are the sum of the
    row sums of the tiles a … a + j. -/
theorem ls_run (c : Dev nD) (b : Fin 1024) (a : ℕ) (ha : a % 49 = 0) (z : Fin 1) :
    ∀ (j : ℕ) (hj : j < 49) (hn : a + j < cfg0.N),
      (stAt m c (a + j) hn).ls (ix2 b z) = ∑ j' ∈ Finset.range (j + 1), tileAt m c b (a + j')
  | 0, hj, hn => by
    rw [Finset.sum_range_one]
    exact ls_first m c b ⟨a + 0, hn⟩ (by show (a + 0) % 49 = 0; omega) z
  | j + 1, hj, hn => by
    have ih := ls_run c b a ha z j (by omega) (Nat.lt_of_succ_lt hn)
    rw [Finset.sum_range_succ, ← ih]
    show (stAt m c ((a + j) + 1) hn).ls (ix2 b z) = (stAt m c (a + j) (Nat.lt_of_succ_lt hn)).ls (ix2 b z) + tileAt m c b ((a + j) + 1)
    have h0 : ¬((a + j) + 1) % 49 = 0 := by omega
    by_cases h1 : ((a + j) + 1) % 49 = 48
    · exact ls_succ_last m c b (a + j) hn h0 h1 z
    · exact ls_succ_mid m c b (a + j) hn h0 h1 z

/-- The running sums after core `h`'s last point: the core's partial sum. -/
theorem ls_end (c : Dev nD) (h : Fin 2) (t : Fin cfg0.N) (ht : t.val = h.val * 49 + 48) (b : Fin 1024) (z : Fin 1) :
    (stAt m c t.val t.isLt).ls (ix2 b z) = Cert.Spec.partK (V m c main_arg0) (V m c main_arg1) h b := by
  obtain ⟨n, hn⟩ := t
  dsimp only at ht
  subst ht
  have hh := h.isLt
  refine (ls_run m c b (h.val * 49) (by omega) z 48 (by omega) hn).trans ?_
  unfold Cert.Spec.partK
  show ∑ j' ∈ Finset.range 49, tileAt m c b (h.val * 49 + j') = _
  rw [Finset.sum_range]
  refine Finset.sum_congr rfl fun j _ => ?_
  unfold tileAt
  rw [dif_pos (by have := j.isLt; omega)]

end Cert.KernelIdeal.Body

end
-- ==== Proof.KI.Final.lean ====
/-
  The kernel's two result arrays after the run, over the extended reals.

  The cosine array is written back tile by tile: the block of grid point t is columns t·1024 … t·1024 + 1023 of the
  matrix, cut at column 100000 in the last tile, and holds the cosine matrix there; the tiles cover every column, so
  the array ends at the cosine matrix. The array of partial sums has one plane per core, written back at the core's
  last point, t = h·49 + 48, where the running sums are the core's partial sum of exp(30·cos).
-/
import proofs.«402459_j22746146800347_3_alg».proof.Proof.KI.ValAt
import proofs.«402459_j22746146800347_3_alg».proof.Proof.KI.LsEnd
import proofs.«402459_j22746146800347_3_alg».proof.Proof.KI.Data
import proofs.«402459_j22746146800347_3_alg».proof.Proof.KI.Payloads
import proofs.«402459_j22746146800347_3_alg».proof.Proof.Spec
import Idealize.ShloMosaic.Lib.ValueIdx
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The cosine array -/

/-- The cosine matrix as the contents of the first result array. -/
abbrev cosArr (c : Dev nD) : S1024x100000.Idx → EReal :=
  fun i => Cert.Spec.cosK (V m c main_arg0) (V m c main_arg1) (i 0) (i 1)

/-- The cosine window's index map over the grid: the block's column index is the point's position, its row index
    zero; the rows are never cut, and the columns are cut at the last point only, to 672. -/
theorem cos_idx : ∀ t : Fin cfg0.N,
    win0_2.index t (0 : Fin 2) = 0 ∧ win0_2.index t (1 : Fin 2) = t.val
    ∧ win0_2.xsize (grid0.coords t) (0 : Fin 2) = 1024
    ∧ (t.val < 97 → win0_2.xsize (grid0.coords t) (1 : Fin 2) = 1024)
    ∧ (t.val = 97 → win0_2.xsize (grid0.coords t) (1 : Fin 2) = 672) :=
  (by decide +kernel : ∀ t : Fin grid0.N, _)

/-- The cosine block after point t at a block index, against the array index of the same element. -/
theorem cos_blk_pt (c : Dev nD) (t : Fin cfg0.N) (j : S1024x1024.Idx) (i : S1024x100000.Idx)
    (h0 : (i 0).val = (j 0).val) (h1 : (i 1).val = t.val * 1024 + (j 1).val) :
    (stAt m c t.val t.isLt).cos j = Cert.Spec.cosK (V m c main_arg0) (V m c main_arg1) (i 0) (i 1) := by
  have hlt : t.val * 1024 + (j 1).val < 100000 := by rw [← h1]; exact idx2_lt1 i
  rw [eq_ix2 j]
  refine (cos_at m c t (j 0) (j 1) hlt).trans ?_
  congr 1
  · exact Fin.ext h0.symm
  · exact Fin.ext h1.symm

/-- What point t writes back to the cosine array is its block of the cosine matrix. -/
theorem flushed_cos (c : Dev nD) (t : Fin cfg0.N) :
    (dats m 0 c).flushed 2 t = ((cfg0.win 2).blk t).view.read (Elt Ideal) (cosArr m c) := by
  show (cfg0.win 2).cut (grid0.coords t) ((dats m 0 c).after 2 t) = _
  rw [after_2]
  obtain ⟨e0, e1, -, -, -⟩ := cos_idx t
  funext y
  show (stAt m c t.val t.isLt).cos ((cfg0.win 2).xinj (grid0.coords t) y)
    = Cert.Spec.cosK (V m c main_arg0) (V m c main_arg1) ((((cfg0.win 2).blk t).view.emb y) 0) ((((cfg0.win 2).blk t).view.emb y) 1)
  refine cos_blk_pt m c t _ _ ?_ ?_
  · show win0_2.index t (0 : Fin 2) * 1024 + 1 * (y 0).val = (y 0).val
    rw [e0]; omega
  · show win0_2.index t (1 : Fin 2) * 1024 + 1 * (y 1).val = t.val * 1024 + (y 1).val
    rw [e1]; omega

/-- An index of the cosine array is in point t's block iff each coordinate is in the block's range on its axis. -/
theorem mem_blk_cos (t : Fin cfg0.N) (i : S1024x100000.Idx) :
    i ∈ ((cfg0.win 2).blk t).view.set ↔ ∀ a : Fin 2, win0_2.index t a * S1024x1024.size a ≤ (i a).val
      ∧ (i a).val < win0_2.index t a * S1024x1024.size a + win0_2.xsize (grid0.coords t) a := by
  show i ∈ ((View.whole main_v0_0).slice (win0_2.rect t)).set ↔ _
  rw [View.set_slice_whole, Rect.mem_set_unit]
  exact Iff.rfl

/-- Column col lies in the block of point col / 1024. -/
theorem cover_cos (i : S1024x100000.Idx) :
    ∃ t : Fin cfg0.N, (cfg0.win 2).flush t = true ∧ i ∈ ((cfg0.win 2).blk t).view.set := by
  have hi0 : (i 0).val < 1024 := idx2_lt0 i
  have hi1 : (i 1).val < 100000 := idx2_lt1 i
  have hN : cfg0.N = 98 := N_0
  have ht : (i 1).val / 1024 < cfg0.N := by rw [hN]; omega
  refine ⟨⟨(i 1).val / 1024, ht⟩, flush0_2 _, ?_⟩
  rw [mem_blk_cos]
  obtain ⟨e0, e1, e2, e3, e4⟩ := cos_idx ⟨(i 1).val / 1024, ht⟩
  have e1' : win0_2.index ⟨(i 1).val / 1024, ht⟩ (1 : Fin 2) = (i 1).val / 1024 := e1
  intro a
  match a with
  | ⟨0, _⟩ =>
    show win0_2.index ⟨(i 1).val / 1024, ht⟩ (0 : Fin 2) * 1024 ≤ (i 0).val
      ∧ (i 0).val < win0_2.index ⟨(i 1).val / 1024, ht⟩ (0 : Fin 2) * 1024 + win0_2.xsize (grid0.coords ⟨(i 1).val / 1024, ht⟩) (0 : Fin 2)
    rw [e0, e2]; omega
  | ⟨1, _⟩ =>
    show win0_2.index ⟨(i 1).val / 1024, ht⟩ (1 : Fin 2) * 1024 ≤ (i 1).val
      ∧ (i 1).val < win0_2.index ⟨(i 1).val / 1024, ht⟩ (1 : Fin 2) * 1024 + win0_2.xsize (grid0.coords ⟨(i 1).val / 1024, ht⟩) (1 : Fin 2)
    rw [e1']
    by_cases h97 : (i 1).val / 1024 = 97
    · rw [e4 h97]; omega
    · rw [e3 (by show (i 1).val / 1024 < 97; omega)]; omega

/-- The first result array after the run is the cosine matrix. -/
theorem final_cos (c : Dev nD) :
    (dats m 0 c).arrAt 2 cfg0.N
      = (fun i => Cert.Spec.cosK (V m c main_arg0) (V m c main_arg1) (i 0) (i 1)) :=
  (dats m 0 c).arrAt_eq_of_cover 2 (cosArr m c) (fun t _ => flushed_cos m c t) cover_cos

/-! ## The array of partial sums -/

/-- The two partial sums as the contents of the second result array: plane h, row b. -/
abbrev partArr (c : Dev nD) : S2x1024x1.Idx → EReal :=
  fun i => Cert.Spec.partK (V m c main_arg0) (V m c main_arg1) (i 0) (i 1)

/-- The partial sums' window's index map over the grid: the plane is the core, t / 49; the other two block indices
    are zero. -/
theorem part_idx : ∀ t : Fin cfg0.N,
    win0_3.index t (0 : Fin 3) = t.val / 49 ∧ win0_3.index t (1 : Fin 3) = 0 ∧ win0_3.index t (2 : Fin 3) = 0 :=
  (by decide +kernel : ∀ t : Fin grid0.N, _)

/-- The block written back after a core's last point at a block index, against the array index of the same
    element. -/
theorem part_blk_pt (c : Dev nD) (t : Fin cfg0.N) (ht : t.val % 49 = 48) (j : S1x1024x1.Idx) (i : S2x1024x1.Idx)
    (h0 : (i 0).val = t.val / 49) (h1 : (i 1).val = (j 1).val) :
    k0_pay7 (stAt m c t.val t.isLt).ls j = Cert.Spec.partK (V m c main_arg0) (V m c main_arg1) (i 0) (i 1) := by
  have hj : j = ix3 (0 : Fin 1) (j 1) (0 : Fin 1) := by
    funext a
    match a with
    | ⟨0, _⟩ => exact Fin.ext (by have h : (j 0).val < 1 := (j 0).isLt; show (j 0).val = 0; omega)
    | ⟨1, _⟩ => rfl
    | ⟨2, _⟩ => exact Fin.ext (by have h : (j 2).val < 1 := (j 2).isLt; show (j 2).val = 0; omega)
  have htv : t.val = (i 0).val * 49 + 48 := by omega
  rw [hj]
  refine (Pay.pay7_apply _ (j 1)).trans ?_
  refine (ls_end m c (i 0) t htv (j 1) (0 : Fin 1)).trans ?_
  congr 1
  exact Fin.ext h1.symm

/-- What a core's last point writes back to the array of partial sums is its block of the partial sums. -/
theorem flushed_part (c : Dev nD) (t : Fin cfg0.N) (hf : (cfg0.win 3).flush t = true) :
    (dats m 0 c).flushed 3 t = ((cfg0.win 3).blk t).view.read (Elt Ideal) (partArr m c) := by
  show (cfg0.win 3).cut (grid0.coords t) ((dats m 0 c).after 3 t) = _
  rw [after_3]
  have ht : t.val % 49 = 48 := (flush0_3 t).mp hf
  obtain ⟨e0, e1, -⟩ := part_idx t
  funext y
  show k0_pay7 (stAt m c t.val t.isLt).ls ((cfg0.win 3).xinj (grid0.coords t) y)
    = Cert.Spec.partK (V m c main_arg0) (V m c main_arg1) ((((cfg0.win 3).blk t).view.emb y) 0) ((((cfg0.win 3).blk t).view.emb y) 1)
  refine part_blk_pt m c t ht _ _ ?_ ?_
  · show win0_3.index t (0 : Fin 3) * 1 + 1 * (y 0).val = t.val / 49
    have hy : (y 0).val < 1 := (y 0).isLt
    rw [e0]; omega
  · show win0_3.index t (1 : Fin 3) * 1024 + 1 * (y 1).val = (y 1).val
    rw [e1]; omega

/-- An index of the array of partial sums is in point t's block iff each coordinate is in the block's range. -/
theorem mem_blk_part (t : Fin cfg0.N) (i : S2x1024x1.Idx) :
    i ∈ ((cfg0.win 3).blk t).view.set ↔ ∀ a : Fin 3, win0_3.index t a * S1x1024x1.size a ≤ (i a).val
      ∧ (i a).val < win0_3.index t a * S1x1024x1.size a + S1x1024x1.size a := by
  show i ∈ ((View.whole main_v0_1).slice (win0_3.rect t)).set ↔ _
  rw [View.set_slice_whole, Rect.mem_set_unit]
  exact Iff.rfl

/-- Plane h lies in the block of core h's last point. -/
theorem cover_part (i : S2x1024x1.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1 := (i 2).isLt
  have hN : cfg0.N = 98 := N_0
  have ht : (i 0).val * 49 + 48 < cfg0.N := by rw [hN]; omega
  refine ⟨⟨(i 0).val * 49 + 48, ht⟩, (flush0_3 _).mpr (by show ((i 0).val * 49 + 48) % 49 = 48; omega), ?_⟩
  rw [mem_blk_part]
  obtain ⟨e0, e1, e2⟩ := part_idx ⟨(i 0).val * 49 + 48, ht⟩
  have e0' : win0_3.index ⟨(i 0).val * 49 + 48, ht⟩ (0 : Fin 3) = ((i 0).val * 49 + 48) / 49 := e0
  intro a
  match a with
  | ⟨0, _⟩ =>
    show win0_3.index ⟨(i 0).val * 49 + 48, ht⟩ (0 : Fin 3) * 1 ≤ (i 0).val
      ∧ (i 0).val < win0_3.index ⟨(i 0).val * 49 + 48, ht⟩ (0 : Fin 3) * 1 + 1
    rw [e0']; omega
  | ⟨1, _⟩ =>
    show win0_3.index ⟨(i 0).val * 49 + 48, ht⟩ (1 : Fin 3) * 1024 ≤ (i 1).val
      ∧ (i 1).val < win0_3.index ⟨(i 0).val * 49 + 48, ht⟩ (1 : Fin 3) * 1024 + 1024
    rw [e1]; omega
  | ⟨2, _⟩ =>
    show win0_3.index ⟨(i 0).val * 49 + 48, ht⟩ (2 : Fin 3) * 1 ≤ (i 2).val
      ∧ (i 2).val < win0_3.index ⟨(i 0).val * 49 + 48, ht⟩ (2 : Fin 3) * 1 + 1
    rw [e2]; omega

/-- The second result array after the run holds the two partial sums. -/
theorem final_partArr (c : Dev nD) : (dats m 0 c).arrAt 3 cfg0.N = partArr m c :=
  (dats m 0 c).arrAt_eq_of_cover 3 (partArr m c) (fun t hf => flushed_part m c t hf) cover_part

theorem final_part (c : Dev nD) (h : Fin 2) (b : Fin 1024) :
    (dats m 0 c).arrAt 3 cfg0.N (ix3 h b (0 : Fin 1))
      = Cert.Spec.partK (V m c main_arg0) (V m c main_arg1) h b :=
  congrFun (final_partArr m c) (ix3 h b (0 : Fin 1))

end Cert.KernelIdeal.Body

end
-- ==== Proof.Algebra.lean ====
/-
  The algebra behind the equivalence, over the extended reals.

  * Dc is the real 2305843 / 2^61, and Kc is its square.
  * Multiplying by the reciprocal square root of max(s, Dc²) is dividing by max(Dc, √s), for a real s ≥ 0.
  * A row's and a column's sum of squares of real entries is a nonnegative real, so the two ways of normalising
    agree and the two cosine matrices are equal.
  * The two partial sums of tile sums regroup the sum over all 100000 columns: 100000 = 97·1024 + 672, the
    positions at or past 100000 of the last tile contribute zero, and 98 = 49 + 49.
-/
import proofs.«402459_j22746146800347_3_alg».proof.Proof.Spec
import Idealize.ShloMosaic.PureOps.Ideal
import Mathlib.Analysis.Real.Sqrt
import Mathlib.Data.EReal.Basic
import Mathlib.Algebra.BigOperators.Fin
import Mathlib.Algebra.BigOperators.Group.Finset.Basic

noncomputable section

open scoped BigOperators

namespace Cert.Spec

open Idealize.ShloMosaic Idealize.ShloMosaic.ValueIdx

/-! ## The constants -/

/-- The pattern 0x2B8CBCCC has exponent field 87 and fraction 834764: (2^23 + 834764)·2^(87-127-23) = 2305843/2^61. -/
theorem Dc_eq : Cert.Spec.Dc = ((2305843 / 2305843009213693952 : ℝ) : EReal) := by
  simp [Dc, Ideal.ofBits, Ideal.ieee, -EReal.coe_mul]; norm_num

/-- The coercion of the reals into the extended reals commutes with the maximum. -/
theorem coe_max' (a b : ℝ) : max (a : EReal) (b : EReal) = ((max a b : ℝ) : EReal) :=
  (EReal.coe_strictMono.monotone.map_max).symm

/-- The coercion of the reals into the extended reals commutes with finite sums. -/
theorem coe_sum' {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-! ## The normalisation law -/

/-- Both sides are a / max(Dc, √s): max(s, Dc²) is positive and its square root is max(√s, Dc). -/
theorem norm_law (a s : ℝ) (hs : 0 ≤ s) :
    (a : EReal) * Ideal.rsqrt (max (s : EReal) Cert.Spec.Kc)
      = Ideal.div (a : EReal) (max Cert.Spec.Dc (Ideal.sqrt (s : EReal))) := by
  have hdpos : (0 : ℝ) < 2305843 / 2305843009213693952 := by norm_num
  have hK : Kc = (((2305843 / 2305843009213693952 : ℝ) * (2305843 / 2305843009213693952 : ℝ) : ℝ) : EReal) := by
    rw [Kc]; congr 1; norm_num
  rw [hK, Dc_eq]
  generalize (2305843 / 2305843009213693952 : ℝ) = d at hdpos
  have hsq : Ideal.sqrt (s : EReal) = ((Real.sqrt s : ℝ) : EReal) := by
    rw [Ideal.sqrt_coe, if_neg (not_lt.mpr hs)]
  have hmpos : 0 < max s (d * d) := lt_max_of_lt_right (mul_pos hdpos hdpos)
  have hmono : Monotone Real.sqrt := fun _ _ h => Real.sqrt_le_sqrt h
  have hroot : Real.sqrt (max s (d * d)) = max d (Real.sqrt s) := by
    rw [hmono.map_max, Real.sqrt_mul_self hdpos.le, max_comm]
  have hypos : 0 < max d (Real.sqrt s) := lt_max_of_lt_left hdpos
  rw [coe_max', Ideal.rsqrt_coe, if_neg (not_lt.mpr hmpos.le), if_neg hmpos.ne', hsq, coe_max',
    Ideal.div_coe hypos.ne', hroot, one_div]

/-! ## Sums of squares of real entries -/

theorem rowSS_real {x : Cert.Spec.XArr} (hx : Cert.Spec.FiniteX x) (b : Fin 1024) :
    ∃ s : ℝ, 0 ≤ s ∧ Cert.Spec.rowSS x b = (s : EReal) := by
  choose f hf using hx
  refine ⟨∑ d : Fin 512, f (ix2 b d) * f (ix2 b d), Finset.sum_nonneg (fun d _ => mul_self_nonneg _), ?_⟩
  rw [rowSS, ← coe_sum']
  refine Finset.sum_congr rfl (fun d _ => ?_)
  rw [hf, EReal.coe_mul]

theorem colSS_real {W : Cert.Spec.WArr} (hW : Cert.Spec.FiniteW W) (c : Fin 100000) :
    ∃ s : ℝ, 0 ≤ s ∧ Cert.Spec.colSS W c = (s : EReal) := by
  choose f hf using hW
  refine ⟨∑ d : Fin 512, f (ix2 d c) * f (ix2 d c), Finset.sum_nonneg (fun d _ => mul_self_nonneg _), ?_⟩
  rw [colSS, ← coe_sum']
  refine Finset.sum_congr rfl (fun d _ => ?_)
  rw [hf, EReal.coe_mul]

/-! ## The two cosine matrices agree -/

theorem xnK_eq_xnR {x : Cert.Spec.XArr} (hx : Cert.Spec.FiniteX x) (b : Fin 1024) (d : Fin 512) :
    xnK x b d = xnR x b d := by
  obtain ⟨s, hs, hss⟩ := rowSS_real hx b
  obtain ⟨r, hr⟩ := hx (ix2 b d)
  rw [xnK, xnR, hss, hr, norm_law r s hs]

theorem wnK_eq_wnR {W : Cert.Spec.WArr} (hW : Cert.Spec.FiniteW W) (d : Fin 512) (c : Fin 100000) :
    wnK W d c = wnR W d c := by
  obtain ⟨s, hs, hss⟩ := colSS_real hW c
  obtain ⟨r, hr⟩ := hW (ix2 d c)
  rw [wnK, wnR, hss, hr, norm_law r s hs]

theorem cosK_eq_cosR {x : Cert.Spec.XArr} {W : Cert.Spec.WArr} (hx : Cert.Spec.FiniteX x)
    (hW : Cert.Spec.FiniteW W) (b : Fin 1024) (c : Fin 100000) :
    Cert.Spec.cosK x W b c = Cert.Spec.cosR x W b c := by
  rw [cosK, cosR]
  congr 2
  refine Finset.sum_congr rfl (fun d _ => ?_)
  rw [xnK_eq_xnR hx, wnK_eq_wnR hW]

/-! ## Regrouping the row sum into tiles -/

/-- A sum over the first m·k naturals, grouped into m blocks of k. -/
theorem sum_range_mul_blocks {M : Type*} [AddCommMonoid M] (g : ℕ → M) (m k : ℕ) :
    ∑ n ∈ Finset.range (m * k), g n = ∑ i ∈ Finset.range m, ∑ j ∈ Finset.range k, g (i * k + j) := by
  induction m with
  | zero => simp
  | succ m ih => rw [Nat.succ_mul, Finset.sum_range_add, ih, Finset.sum_range_succ]

/-- The summand of the row sum at a natural position: exp(30·cos) below 100000 and zero from there on. -/
def padTerm (x : XArr) (W : WArr) (b : Fin 1024) (n : ℕ) : EReal :=
  if h : n < 100000 then Ideal.exp (thirty * cosK x W b ⟨n, h⟩) else 0

theorem tileSumK_eq (x : XArr) (W : WArr) (b : Fin 1024) (t : Fin 98) :
    tileSumK x W b t = ∑ k ∈ Finset.range 1024, padTerm x W b (t.val * 1024 + k) := by
  rw [← Fin.sum_univ_eq_sum_range (fun k => padTerm x W b (t.val * 1024 + k)) 1024]
  rfl

theorem partK_eq (x : XArr) (W : WArr) (h : Fin 2) (b : Fin 1024) :
    partK x W h b
      = ∑ j ∈ Finset.range 49, ∑ k ∈ Finset.range 1024, padTerm x W b ((h.val * 49 + j) * 1024 + k) := by
  rw [← Fin.sum_univ_eq_sum_range
    (fun j => ∑ k ∈ Finset.range 1024, padTerm x W b ((h.val * 49 + j) * 1024 + k)) 49]
  rw [partK]
  refine Finset.sum_congr rfl (fun j _ => ?_)
  rw [tileSumK_eq]

theorem rowExpSum_eq (x : XArr) (W : WArr) (b : Fin 1024) :
    rowExpSum (cosK x W) b = ∑ n ∈ Finset.range (98 * 1024), padTerm x W b n := by
  have h1 : rowExpSum (cosK x W) b = ∑ c : Fin 100000, padTerm x W b c.val := by
    rw [rowExpSum]
    refine Finset.sum_congr rfl (fun c _ => ?_)
    rw [padTerm, dif_pos c.isLt]
  rw [h1, Fin.sum_univ_eq_sum_range (fun n => padTerm x W b n) 100000]
  refine Finset.sum_subset (fun n hn => ?_) (fun n _ hn => ?_)
  · rw [Finset.mem_range] at hn ⊢; omega
  rw [Finset.mem_range] at hn
  rw [padTerm, dif_neg hn]

theorem part_sum (x : Cert.Spec.XArr) (W : Cert.Spec.WArr) (b : Fin 1024) :
    Cert.Spec.partK x W 0 b + Cert.Spec.partK x W 1 b = Cert.Spec.rowExpSum (Cert.Spec.cosK x W) b := by
  have e0 : ((0 : Fin 2) : ℕ) = 0 := rfl
  have e1 : ((1 : Fin 2) : ℕ) = 1 := rfl
  have h2 := Finset.sum_range_add
    (fun i => ∑ k ∈ Finset.range 1024, padTerm x W b (i * 1024 + k)) 49 49
  rw [rowExpSum_eq, partK_eq, partK_eq, sum_range_mul_blocks (padTerm x W b) 98 1024]
  simp only [e0, e1, zero_mul, zero_add, one_mul]
  exact h2.symm

end Cert.Spec

end
-- ==== Proof.RefValue.lean ====
/-
  The reference's two intermediate values, read index by index.

  The clipped cosine matrix the reference writes is, at (b, c), the clip to [-1, 1] of the inner product of row b of x
  and column c of W, each divided by its Euclidean norm clamped below by Dc. The row sums of exp(30·cos) the reference
  takes inside its second result are, at b, the sum over all 100000 columns. A true finiteness predicate says every
  entry of x and of W is a real number.
-/
import proofs.«402459_j22746146800347_3_alg».proof.Proof.Gen.ReferenceIdeal.Read
import proofs.«402459_j22746146800347_3_alg».proof.Proof.Spec
import proofs.«402459_j22746146800347_3_alg».proof.Proof.Gen.Pre_finite_inputs
import proofs.«402459_j22746146800347_3_alg».proof.Pre_finite_inputs
import Idealize.ShloMosaic.Lib.ValueIdx
import Idealize.ShloMosaic.Lib.Pipeline.Value
import Idealize.ShloMosaic.PureOps.Ideal.Laws
import Idealize.ShloMosaic.Lib.ReduceAll

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The sums of squares -/

/-- The reference's row reduction of x·x at row b is the row's sum of squares: the initial value is the zero word. -/
theorem rowSS_at (x0 : (⟨S1024x512, .f32⟩ : BufTy).Contents (Elt Ideal)) (b : Fin 1024) :
    val_main_call0_v1 (F := Ideal) x0 (ix1 b) = Cert.Spec.rowSS x0 b := by
  rw [val_main_call0_v1_apply, val_main_call0_cst_apply, Ideal.ofBits_def, Ideal.ofBits_zero_f32, zero_add]
  unfold Cert.Spec.rowSS
  refine Finset.sum_congr rfl fun d _ => ?_
  have e : idx_main_call0_v1 (ix1 b) d = ix2 b d :=
    funext fun a => Fin.ext (by match a with | ⟨0, _⟩ => rfl | ⟨1, _⟩ => rfl)
  rw [e, val_main_call0_v0_apply, Ideal.mulf_def]

/-- The reference's column reduction of W·W at column c is the column's sum of squares. -/
theorem colSS_at (x1 : (⟨S512x100000, .f32⟩ : BufTy).Contents (Elt Ideal)) (c : Fin 100000) :
    val_main_call2_v1 (F := Ideal) x1 (ix1 c) = Cert.Spec.colSS x1 c := by
  rw [val_main_call2_v1_apply, val_main_call2_cst_apply, Ideal.ofBits_def, Ideal.ofBits_zero_f32, zero_add]
  unfold Cert.Spec.colSS
  refine Finset.sum_congr rfl fun d _ => ?_
  have e : idx_main_call2_v1 (ix1 c) d = ix2 d c :=
    funext fun a => Fin.ext (by match a with | ⟨0, _⟩ => rfl | ⟨1, _⟩ => rfl)
  rw [e, val_main_call2_v0_apply, Ideal.mulf_def]

/-! ## The normalised operands -/

/-- Row b of x divided by its clamped norm. -/
theorem xn_at (x0 : (⟨S1024x512, .f32⟩ : BufTy).Contents (Elt Ideal)) (b : Fin 1024) (d : Fin 512) :
    val_main_v3 (F := Ideal) x0 (ix2 b d) = Cert.Spec.xnR x0 b d := by
  have e2 : idx_main_v2 (ix2 b d) = ix2 b (0 : Fin 1) :=
    funext fun a => Fin.ext (by match a with | ⟨0, _⟩ => rfl | ⟨1, _⟩ => rfl)
  have e02 : idx_main_call0_v2 (ix2 b (0 : Fin 1)) = ix1 b :=
    funext fun a => Fin.ext (by match a with | ⟨0, _⟩ => rfl)
  rw [val_main_v3_apply, val_main_v2_apply, e2, val_main_v1_apply, val_main_call1_v1_apply, val_main_call1_v0_apply,
    val_main_cst_apply, val_main_v0_apply, val_main_call0_v2_apply, e02, rowSS_at]
  simp only [Ideal.hostDivf_def, Ideal.maximumf_def, Ideal.hostUnary_sqrt_def, Ideal.ofBits_def]
  rfl

/-- Column c of W divided by its clamped norm. -/
theorem wn_at (x1 : (⟨S512x100000, .f32⟩ : BufTy).Contents (Elt Ideal)) (d : Fin 512) (c : Fin 100000) :
    val_main_v7 (F := Ideal) x1 (ix2 d c) = Cert.Spec.wnR x1 d c := by
  have e6 : idx_main_v6 (ix2 d c) = ix2 (0 : Fin 1) c :=
    funext fun a => Fin.ext (by match a with | ⟨0, _⟩ => rfl | ⟨1, _⟩ => rfl)
  have e22 : idx_main_call2_v2 (ix2 (0 : Fin 1) c) = ix1 c :=
    funext fun a => Fin.ext (by match a with | ⟨0, _⟩ => rfl)
  rw [val_main_v7_apply, val_main_v6_apply, e6, val_main_v5_apply, val_main_call3_v1_apply, val_main_call3_v0_apply,
    val_main_cst_0_apply, val_main_v4_apply, val_main_call2_v2_apply, e22, colSS_at]
  simp only [Ideal.hostDivf_def, Ideal.maximumf_def, Ideal.hostUnary_sqrt_def, Ideal.ofBits_def]
  rfl

/-! ## The clipped cosine matrix -/

/-- The reference's first result at (b, c). -/
theorem cos_at (x0 : (⟨S1024x512, .f32⟩ : BufTy).Contents (Elt Ideal)) (x1 : (⟨S512x100000, .f32⟩ : BufTy).Contents (Elt Ideal))
    (b : Fin 1024) (c : Fin 100000) :
    val_main_v9 (F := Ideal) x0 x1 (ix2 b c) = Cert.Spec.cosR x0 x1 b c := by
  have el : ∀ k : Fin 512, lidx_main_v8 (ix2 b c) k = ix2 b k := fun k =>
    funext fun a => Fin.ext (by match a with | ⟨0, _⟩ => rfl | ⟨1, _⟩ => rfl)
  have er : ∀ k : Fin 512, ridx_main_v8 (ix2 b c) k = ix2 k c := fun k =>
    funext fun a => Fin.ext (by match a with | ⟨0, _⟩ => rfl | ⟨1, _⟩ => rfl)
  rw [val_main_v9_apply, val_main_call4_v4_apply, val_main_call4_v3_apply, val_main_cst_2_apply, val_main_call4_v2_apply,
    val_main_call4_v1_apply, val_main_call4_v0_apply, val_main_cst_1_apply, val_main_v8_apply]
  simp only [el, er, xn_at, wn_at, Ideal.minimumf_def, Ideal.maximumf_def, Ideal.ofBits_def]
  rfl

/-- The reference's first result, at (b, c), as the run states it. -/
theorem ref_cos_at (m : (ℓ : Loc nD τ sig) → Buf (Elt Ideal) ℓ) (c : Dev nD) (b : Fin 1024) (col : Fin 100000) :
    (minimumf (broadcastInDim S1024x100000 ![] bcast_S_S1024x100000 (id (constant (F := Ideal) S_ .f32 0x3F800000#32))) (maximumf (broadcastInDim S1024x100000 ![] bcast_S_S1024x100000 (id (constant (F := Ideal) S_ .f32 0xBF800000#32))) (Host.dotGeneral (F := Ideal) dot_S1024x512_S512x100000_S1024x100000_1_0_0_1_n_n none (Host.divf (F := Ideal) (m ((c.tc : Thread nD τ).loc main_arg0)) (broadcastInDim S1024x512 ![0, 1] bcast_S1024x1_S1024x512_0_1 (maximumf (broadcastInDim S1024x1 ![] bcast_S_S1024x1 (id (constant (F := Ideal) S_ .f32 0x2B8CBCCC#32))) (Host.sqrt (F := Ideal) (broadcastInDim S1024x1 ![0] bcast_S1024_S1024x1_0 (Host.reduceAdd (F := Ideal) (mulf (m ((c.tc : Thread nD τ).loc main_arg0)) (m ((c.tc : Thread nD τ).loc main_arg0))) (constant (F := Ideal) S_ .f32 0x00000000#32) reducesTo_S1024x512_S1024_d1 h_S_)))))) (Host.divf (F := Ideal) (m ((c.tc : Thread nD τ).loc main_arg1)) (broadcastInDim S512x100000 ![0, 1] bcast_S1x100000_S512x100000_0_1 (maximumf (broadcastInDim S1x100000 ![] bcast_S_S1x100000 (id (constant (F := Ideal) S_ .f32 0x2B8CBCCC#32))) (Host.sqrt (F := Ideal) (broadcastInDim S1x100000 ![1] bcast_S100000_S1x100000_1 (Host.reduceAdd (F := Ideal) (mulf (m ((c.tc : Thread nD τ).loc main_arg1)) (m ((c.tc : Thread nD τ).loc main_arg1))) (constant (F := Ideal) S_ .f32 0x00000000#32) reducesTo_S512x100000_S100000_d0 h_S_))))))))) (ix2 b col)
      = Cert.Spec.cosR (m ((c.tc : Thread nD τ).loc main_arg0)) (m ((c.tc : Thread nD τ).loc main_arg1)) b col :=
  (congrFun (val_main_v9_eq (F := Ideal) (m ((c.tc : Thread nD τ).loc main_arg0)) (m ((c.tc : Thread nD τ).loc main_arg1))) (ix2 b col)).trans
    (cos_at _ _ b col)

/-- The reference's first result as a function of the index. -/
theorem ref_cos (m : (ℓ : Loc nD τ sig) → Buf (Elt Ideal) ℓ) (c : Dev nD) :
    minimumf (broadcastInDim S1024x100000 ![] bcast_S_S1024x100000 (id (constant (F := Ideal) S_ .f32 0x3F800000#32))) (maximumf (broadcastInDim S1024x100000 ![] bcast_S_S1024x100000 (id (constant (F := Ideal) S_ .f32 0xBF800000#32))) (Host.dotGeneral (F := Ideal) dot_S1024x512_S512x100000_S1024x100000_1_0_0_1_n_n none (Host.divf (F := Ideal) (m ((c.tc : Thread nD τ).loc main_arg0)) (broadcastInDim S1024x512 ![0, 1] bcast_S1024x1_S1024x512_0_1 (maximumf (broadcastInDim S1024x1 ![] bcast_S_S1024x1 (id (constant (F := Ideal) S_ .f32 0x2B8CBCCC#32))) (Host.sqrt (F := Ideal) (broadcastInDim S1024x1 ![0] bcast_S1024_S1024x1_0 (Host.reduceAdd (F := Ideal) (mulf (m ((c.tc : Thread nD τ).loc main_arg0)) (m ((c.tc : Thread nD τ).loc main_arg0))) (constant (F := Ideal) S_ .f32 0x00000000#32) reducesTo_S1024x512_S1024_d1 h_S_)))))) (Host.divf (F := Ideal) (m ((c.tc : Thread nD τ).loc main_arg1)) (broadcastInDim S512x100000 ![0, 1] bcast_S1x100000_S512x100000_0_1 (maximumf (broadcastInDim S1x100000 ![] bcast_S_S1x100000 (id (constant (F := Ideal) S_ .f32 0x2B8CBCCC#32))) (Host.sqrt (F := Ideal) (broadcastInDim S1x100000 ![1] bcast_S100000_S1x100000_1 (Host.reduceAdd (F := Ideal) (mulf (m ((c.tc : Thread nD τ).loc main_arg1)) (m ((c.tc : Thread nD τ).loc main_arg1))) (constant (F := Ideal) S_ .f32 0x00000000#32) reducesTo_S512x100000_S100000_d0 h_S_))))))))
      = (fun i => Cert.Spec.cosR (m ((c.tc : Thread nD τ).loc main_arg0)) (m ((c.tc : Thread nD τ).loc main_arg1)) (i 0) (i 1)) := by
  refine (val_main_v9_eq (F := Ideal) (m ((c.tc : Thread nD τ).loc main_arg0)) (m ((c.tc : Thread nD τ).loc main_arg1))).trans ?_
  funext i
  obtain ⟨b, col, rfl⟩ : ∃ (b : Fin 1024) (col : Fin 100000), i = ix2 b col := ⟨i 0, i 1, eq_ix2 i⟩
  exact cos_at _ _ b col

/-! ## The row sums of exp(30·cos) -/

/-- The host's sum along axis 1 of a [1024, 100000] array from the zero word, at row b. -/
theorem hostRowSum_at (y : (⟨S1024x100000, .f32⟩ : BufTy).Contents (Elt Ideal)) (b : Fin 1024) :
    (Host.reduceAdd (F := Ideal) y (constant (F := Ideal) S_ .f32 0x00000000#32) reducesTo_S1024x100000_S1024_d1 h_S_) (ix1 b)
      = ∑ k : Fin 100000, y (ix2 b k) := by
  simp only [Host.reduceAdd, Ideal.hostReduceAdd_def]
  rw [Ideal.hostReduceAdd_single reducesTo_S1024x100000_S1024_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The reference's row sums of exp(30·cos), for any cosine matrix, at row b. -/
theorem ref_rowsum (cosv : (⟨S1024x100000, .f32⟩ : BufTy).Contents (Elt Ideal)) (b : Fin 1024) :
    (Host.reduceAdd (F := Ideal) (Host.exp (F := Ideal) (mulf (broadcastInDim S1024x100000 ![] bcast_S_S1024x100000 (constant (F := Ideal) S_ .f32 0x41F00000#32)) cosv)) (constant (F := Ideal) S_ .f32 0x00000000#32) reducesTo_S1024x100000_S1024_d1 h_S_) (ix1 b)
      = Cert.Spec.rowExpSum (fun b c => cosv (ix2 b c)) b := by
  rw [hostRowSum_at]
  unfold Cert.Spec.rowExpSum
  refine Finset.sum_congr rfl fun k _ => ?_
  have e : broadcastInDim S1024x100000 ![] bcast_S_S1024x100000 (constant (F := Ideal) S_ .f32 0x41F00000#32) (ix2 b k)
      = Cert.Spec.thirty :=
    broadcastInDim_apply _ bcast_S_S1024x100000 _ (ix2 b k) ix0 (fun a => a.elim0)
  show Ideal.exp (broadcastInDim S1024x100000 ![] bcast_S_S1024x100000 (constant (F := Ideal) S_ .f32 0x41F00000#32) (ix2 b k) * cosv (ix2 b k)) = _
  rw [e]

/-! ## Finiteness -/

local instance subsingleton_scalarIdx : Subsingleton (Cert.Pre_finite_inputs.S_).Idx := ⟨fun _ _ => funext fun d => d.elim0⟩

/-- An extended real whose absolute value is below the f32 infinity word's value is a real number. -/
theorem real_of_abs_lt_inf (v : EReal)
    (h : FloatOps.cmpf (F := Ideal) (φ := .f32) .olt (FloatOps.hostAbsf (F := Ideal) (φ := .f32) v) (Ideal.ofBits .f32 0x7F800000#32) = 1#1) :
    ∃ r : ℝ, v = (r : EReal) := by
  have htop : Ideal.ofBits .f32 0x7F800000#32 = (⊤ : EReal) := by simp [Ideal.ofBits, Ideal.ieee]
  rw [htop] at h
  induction v using EReal.rec with
  | bot => exact absurd h (by decide)
  | top => exact absurd h (by decide)
  | coe r => exact ⟨r, rfl⟩

theorem finite_of_pre (x : Vec Ideal S1024x512 .f32) (W : Vec Ideal S512x100000 .f32) (lab : IVec S1024 32)
    (h : Cert.Pre_finite_inputs.fn (F := Ideal) x W lab = (fun _ => 1#1)) :
    Cert.Spec.FiniteX x ∧ Cert.Spec.FiniteW W := by
  have h0 := congrFun h ValueIdx.ix0
  dsimp only [Cert.Pre_finite_inputs.fn] at h0
  obtain ⟨hx, hw⟩ := IntOp.andi_eq_one.1 h0
  refine ⟨fun i => ?_, fun i => ?_⟩
  · have hi := Host.reduce_andi_all _ _ _ _ _ hx i
    refine real_of_abs_lt_inf (x i) ?_
    have e : broadcastInDim Cert.Pre_finite_inputs.S1024x512 ![] Cert.Pre_finite_inputs.Facts.bcast_S_S1024x512 (constant (F := Ideal) Cert.Pre_finite_inputs.S_ .f32 0x7F800000#32) i
        = Ideal.ofBits .f32 0x7F800000#32 :=
      broadcastInDim_apply _ Cert.Pre_finite_inputs.Facts.bcast_S_S1024x512 _ i ix0 (fun a => a.elim0)
    rw [← e]
    exact hi
  · have hi := Host.reduce_andi_all _ _ _ _ _ hw i
    refine real_of_abs_lt_inf (W i) ?_
    have e : broadcastInDim Cert.Pre_finite_inputs.S512x100000 ![] Cert.Pre_finite_inputs.Facts.bcast_S_S512x100000 (constant (F := Ideal) Cert.Pre_finite_inputs.S_ .f32 0x7F800000#32) i
        = Ideal.ofBits .f32 0x7F800000#32 :=
      broadcastInDim_apply _ Cert.Pre_finite_inputs.Facts.bcast_S_S512x100000 _ i ix0 (fun a => a.elim0)
    rw [← e]
    exact hi

end Cert.ReferenceIdeal.RefValue

end
-- ==== Proof.Tail.lean ====
/-
  The tail both programs share. After the cosine matrix, each program gathers the label's column of every row
  (negative labels wrapped once by the number of columns, a label outside the columns read as NaN), forms
  numerator = 30·(tgt − 0.4) and excl = lsum − exp(30·tgt), the row's term numerator − log(exp(numerator) + excl),
  and the loss −(Σ terms)/1024. They differ only in where the row sums `lsum` of exp(30·cos) come from: one
  reduction over the columns in the reference, the sum of the two partial-sum planes in the kernel's program.
  The chain is named once, as a function of the cosine matrix, the row sums and the labels.
-/
import proofs.«402459_j22746146800347_3_alg».proof.Proof.Gen.KernelIdeal.Frame
import proofs.«402459_j22746146800347_3_alg».proof.Proof.Gen.ReferenceIdeal.Run
import proofs.«402459_j22746146800347_3_alg».proof.Proof.Spec
import Idealize.ShloMosaic.Lib.StableHlo.Run
import Idealize.ShloMosaic.Lib.Pipeline.FrameSuffix
import Idealize.ShloMosaic.Lib.Pipeline.Value
import Idealize.ShloMosaic.Lib.ValueIdx

noncomputable section

namespace Cert.Tail

open Idealize.ShloMosaic Idealize.ShloMosaic.TcCoe Idealize.SL.Sem Idealize.ShloMosaic.StableHlo

section Def
open Cert.ReferenceIdeal Cert.ReferenceIdeal.Gen

/-- The labels as a column, a negative one moved up by the number of columns, as the gather's start indices. -/
def gidx (label : IVec S1024 32) : IVec S1024x1x1 32 :=
  shapeCast _ (select (cmpi .slt (broadcastInDim S1024x1 ![0] bcast_S1024_S1024x1_0 label) (broadcastInDim S1024x1 ![] bcast_S_S1024x1 (constantI S_ 32 0#32))) (addi (broadcastInDim S1024x1 ![0] bcast_S1024_S1024x1_0 label) (broadcastInDim S1024x1 ![] bcast_S_S1024x1 (constantI S_ 32 100000#32))) (broadcastInDim S1024x1 ![0] bcast_S1024_S1024x1_0 label)) shapeCasts_S1024x1_S1024x1x1

/-- Each row's entry of `cos` at its label's column; NaN where the label is outside the columns. -/
def tgt (cos : Vec Ideal S1024x100000 .f32) (label : IVec S1024 32) : Vec Ideal S1024 .f32 :=
  shapeCast _ (select (Host.reduce IntOp.andi (andi (cmpi .sge (gidx label) (broadcastInDim S1024x1x1 ![] bcast_S_S1024x1x1 (constantI S_ 32 0#32))) (cmpi .sle (gidx label) (broadcastInDim S1024x1x1 ![0, 1, 2] bcast_S1x1x1_S1024x1x1_0_1_2 (broadcastInDim S1x1x1 ![2] bcast_S1_S1x1x1_2 (constantI S1 32 99999#32))))) (constantI S_ 1 1#1) reducesTo_S1024x1x1_S1024x1_d2 h_S_) (Host.gather gather_S1024x100000_S1024x1x1_S1024x1_n_1_0_0_1_2_11 cos (gidx label)) (broadcastInDim S1024x1 ![] bcast_S_S1024x1 (constant (F := Ideal) S_ .f32 0x7FC00000#32))) shapeCasts_S1024x1_S1024

/-- 30·(tgt − 0.4). -/
def numer (cos : Vec Ideal S1024x100000 .f32) (label : IVec S1024 32) : Vec Ideal S1024 .f32 :=
  mulf (broadcastInDim S1024 ![] bcast_S_S1024 (constant (F := Ideal) S_ .f32 0x41F00000#32)) (subf (tgt cos label) (broadcastInDim S1024 ![] bcast_S_S1024 (constant (F := Ideal) S_ .f32 0x3ECCCCCD#32)))

/-- The loss as a function of the cosine matrix, the rows' sums of exp(30·cos) and the labels. -/
def lossTail (cos : Vec Ideal S1024x100000 .f32) (lsum : Vec Ideal S1024 .f32) (label : IVec S1024 32) : Vec Ideal S_ .f32 :=
  Host.negf (F := Ideal) (Host.divf (F := Ideal) (Host.reduceAdd (F := Ideal) (subf (numer cos label) (Host.log (F := Ideal) (addf (Host.exp (F := Ideal) (numer cos label)) (subf lsum (Host.exp (F := Ideal) (mulf (broadcastInDim S1024 ![] bcast_S_S1024 (constant (F := Ideal) S_ .f32 0x41F00000#32)) (tgt cos label))))))) (constant (F := Ideal) S_ .f32 0x00000000#32) reducesTo_S1024_S_d0 h_S_) (constant (F := Ideal) S_ .f32 0x44800000#32))

/-- The reference's cosine matrix as `run` states it. -/
def refCos (m : (ℓ : Loc nD τ sig) → Buf (Elt Ideal) ℓ) (c : Dev nD) : Vec Ideal S1024x100000 .f32 :=
  minimumf (broadcastInDim S1024x100000 ![] bcast_S_S1024x100000 (id (constant (F := Ideal) S_ .f32 0x3F800000#32))) (maximumf (broadcastInDim S1024x100000 ![] bcast_S_S1024x100000 (id (constant (F := Ideal) S_ .f32 0xBF800000#32))) (Host.dotGeneral (F := Ideal) dot_S1024x512_S512x100000_S1024x100000_1_0_0_1_n_n none (Host.divf (F := Ideal) (m ((c.tc : Thread nD τ).loc main_arg0)) (broadcastInDim S1024x512 ![0, 1] bcast_S1024x1_S1024x512_0_1 (maximumf (broadcastInDim S1024x1 ![] bcast_S_S1024x1 (id (constant (F := Ideal) S_ .f32 0x2B8CBCCC#32))) (Host.sqrt (F := Ideal) (broadcastInDim S1024x1 ![0] bcast_S1024_S1024x1_0 (Host.reduceAdd (F := Ideal) (mulf (m ((c.tc : Thread nD τ).loc main_arg0)) (m ((c.tc : Thread nD τ).loc main_arg0))) (constant (F := Ideal) S_ .f32 0x00000000#32) reducesTo_S1024x512_S1024_d1 h_S_)))))) (Host.divf (F := Ideal) (m ((c.tc : Thread nD τ).loc main_arg1)) (broadcastInDim S512x100000 ![0, 1] bcast_S1x100000_S512x100000_0_1 (maximumf (broadcastInDim S1x100000 ![] bcast_S_S1x100000 (id (constant (F := Ideal) S_ .f32 0x2B8CBCCC#32))) (Host.sqrt (F := Ideal) (broadcastInDim S1x100000 ![1] bcast_S100000_S1x100000_1 (Host.reduceAdd (F := Ideal) (mulf (m ((c.tc : Thread nD τ).loc main_arg1)) (m ((c.tc : Thread nD τ).loc main_arg1))) (constant (F := Ideal) S_ .f32 0x00000000#32) reducesTo_S512x100000_S100000_d0 h_S_))))))))

/-- The reference's row sums of exp(30·cos): one reduction over the columns. -/
def refLsum (cos : Vec Ideal S1024x100000 .f32) : Vec Ideal S1024 .f32 :=
  Host.reduceAdd (F := Ideal) (Host.exp (F := Ideal) (mulf (broadcastInDim S1024x100000 ![] bcast_S_S1024x100000 (constant (F := Ideal) S_ .f32 0x41F00000#32)) cos)) (constant (F := Ideal) S_ .f32 0x00000000#32) reducesTo_S1024x100000_S1024_d1 h_S_

set_option maxRecDepth 8192 in
/-- The reference's second result is the shared tail of its cosine matrix, its row sums and the labels. -/
theorem ref_loss (m : (ℓ : Loc nD τ sig) → Buf (Elt Ideal) ℓ) (c : Dev nD) :
    Cert.ReferenceIdeal.Value.res_main_v31 (F := Ideal) m c
      = lossTail (refCos m c) (refLsum (refCos m c)) (m ((c.tc : Thread nD τ).loc main_arg2)) := by
  unfold Cert.ReferenceIdeal.Value.res_main_v31 lossTail numer tgt gidx refLsum refCos
  rfl

end Def

end Cert.Tail

end
-- ==== Proof.TailKer.lean ====
/-
  The kernel program's host operations after its region, read at its loss buffer: the sum of the two partial-sum
  planes, the gather of each row's label column from the cosine matrix, and the shared chain to the loss. The 49
  operations are read stretch by stretch over an arbitrary valuation, each stretch's result named as a function of
  the buffers it reads, and the three are composed.
-/
import proofs.«402459_j22746146800347_3_alg».proof.Proof.Tail

noncomputable section

namespace Cert.Tail

open Idealize.ShloMosaic Idealize.ShloMosaic.TcCoe Idealize.SL.Sem Idealize.ShloMosaic.StableHlo

section Ker
open Cert.KernelIdeal Cert.KernelIdeal.Gen

/-- The rows' sums of exp(30·cos) in the kernel's program: the sum of the two partial-sum planes. -/
def kerLsum (p : Vec Ideal S2x1024x1 .f32) : Vec Ideal S1024 .f32 :=
  addf (F := Ideal) (φ := .f32) (shapeCast _ (extractStridedSlice S1x1024x1 ![0, 0, 0] p slices_S2x1024x1_S1x1024x1_0_0_0) shapeCasts_S1x1024x1_S1024)
    (shapeCast _ (extractStridedSlice S1x1024x1 ![1, 0, 0] p slices_S2x1024x1_S1x1024x1_1_0_0) shapeCasts_S1x1024x1_S1024)

open Idealize.ShloMosaic.ValueIdx in
/-- The kernel program's row sums at a row: the two partial-sum planes' entries added. -/
theorem kerLsum_apply (p : Vec Ideal S2x1024x1 .f32) (i : S1024.Idx) :
    kerLsum p i = p (ix3 (0 : Fin 2) (i 0) (0 : Fin 1)) + p (ix3 (1 : Fin 2) (i 0) (0 : Fin 1)) := by
  unfold kerLsum
  rw [addf_apply]
  congr 1
  · refine (shapeCast_apply _ _ i (ix3 (0 : Fin 1) (i 0) (0 : Fin 1)) ?_).trans
      (extractStridedSlice_apply _ _ _ _ _ fun a => ?_)
    · rw [Shape.rowMajor_val_three, Shape.rowMajor_val_one]
      show (0 * 1024 + (i 0).val) * 1 + 0 = (i 0).val
      omega
    · match a with
      | ⟨0, _⟩ => rfl
      | ⟨1, _⟩ => show (i 0).val = 0 + (i 0).val; omega
      | ⟨2, _⟩ => rfl
  · refine (shapeCast_apply _ _ i (ix3 (0 : Fin 1) (i 0) (0 : Fin 1)) ?_).trans
      (extractStridedSlice_apply _ _ _ _ _ fun a => ?_)
    · rw [Shape.rowMajor_val_three, Shape.rowMajor_val_one]
      show (0 * 1024 + (i 0).val) * 1 + 0 = (i 0).val
      omega
    · match a with
      | ⟨0, _⟩ => rfl
      | ⟨1, _⟩ => show (i 0).val = 0 + (i 0).val; omega
      | ⟨2, _⟩ => rfl

/-- The gather's start indices from the labels' column. -/
def kerGidx (v6 : IVec S1024x1 32) : IVec S1024x1x1 32 :=
  shapeCast _ (select (cmpi .slt v6 (broadcastInDim S1024x1 ![] bcast_S_S1024x1 (constantI S_ 32 0#32))) (addi v6 (broadcastInDim S1024x1 ![] bcast_S_S1024x1 (constantI S_ 32 100000#32))) v6) shapeCasts_S1024x1_S1024x1x1

/-- Each row's entry of the cosine matrix at its label's column, as a column. -/
def kerTgt (cos : Vec Ideal S1024x100000 .f32) (v6 : IVec S1024x1 32) : Vec Ideal S1024x1 .f32 :=
  select (Host.reduce IntOp.andi (andi (cmpi .sge (kerGidx v6) (broadcastInDim S1024x1x1 ![] bcast_S_S1024x1x1 (constantI S_ 32 0#32))) (cmpi .sle (kerGidx v6) (broadcastInDim S1024x1x1 ![0, 1, 2] bcast_S1x1x1_S1024x1x1_0_1_2 (broadcastInDim S1x1x1 ![2] bcast_S1_S1x1x1_2 (constantI S1 32 99999#32))))) (constantI S_ 1 1#1) reducesTo_S1024x1x1_S1024x1_d2 h_S_) (Host.gather gather_S1024x100000_S1024x1x1_S1024x1_n_1_0_0_1_2_11 cos (kerGidx v6)) (broadcastInDim S1024x1 ![] bcast_S_S1024x1 (constant (F := Ideal) S_ .f32 0x7FC00000#32))

/-- The target entries as a vector. -/
def kerT (v7 : Vec Ideal S1024x1 .f32) : Vec Ideal S1024 .f32 := shapeCast _ v7 shapeCasts_S1024x1_S1024

/-- 30·(tgt − 0.4). -/
def kerNumer (v7 : Vec Ideal S1024x1 .f32) : Vec Ideal S1024 .f32 :=
  mulf (broadcastInDim S1024 ![] bcast_S_S1024 (constant (F := Ideal) S_ .f32 0x41F00000#32)) (subf (kerT v7) (broadcastInDim S1024 ![] bcast_S_S1024 (constant (F := Ideal) S_ .f32 0x3ECCCCCD#32)))

/-- The loss from the target column and the rows' sums. -/
def kerLoss (v7 : Vec Ideal S1024x1 .f32) (v5 : Vec Ideal S1024 .f32) : Vec Ideal S_ .f32 :=
  Host.negf (F := Ideal) (Host.divf (F := Ideal) (Host.reduceAdd (F := Ideal) (subf (kerNumer v7) (Host.log (F := Ideal) (addf (Host.exp (F := Ideal) (kerNumer v7)) (subf v5 (Host.exp (F := Ideal) (mulf (broadcastInDim S1024 ![] bcast_S_S1024 (constant (F := Ideal) S_ .f32 0x41F00000#32)) (kerT v7))))))) (constant (F := Ideal) S_ .f32 0x00000000#32) reducesTo_S1024_S_d0 h_S_) (constant (F := Ideal) S_ .f32 0x44800000#32))

/-! ## The three stretches over an arbitrary valuation -/

theorem tail1_v5 (W : Valuation τ sig (Elt Ideal)) :
    after (hostOps1 (F := Ideal)) W (Proc.devRef .tc main_v5) = kerLsum (W (Proc.devRef .tc main_v0_1)) := by
  simp only [hostOps1]; after_results; rfl

theorem tail1_v6 (W : Valuation τ sig (Elt Ideal)) :
    after (hostOps1 (F := Ideal)) W (Proc.devRef .tc main_v6)
      = broadcastInDim S1024x1 ![0] bcast_S1024_S1024x1_0 (W (Proc.devRef .tc main_arg2)) := by
  simp only [hostOps1]; after_results

theorem tail1_v0_0 (W : Valuation τ sig (Elt Ideal)) :
    after (hostOps1 (F := Ideal)) W (Proc.devRef .tc main_v0_0) = W (Proc.devRef .tc main_v0_0) := by
  simp only [hostOps1]; after_results

set_option maxHeartbeats 1600000 in
theorem tail2_v7 (W : Valuation τ sig (Elt Ideal)) :
    after (hostOps1_1 (F := Ideal)) W (Proc.devRef .tc main_v7)
      = kerTgt (W (Proc.devRef .tc main_v0_0)) (W (Proc.devRef .tc main_v6)) := by
  simp only [hostOps1_1]; after_results_simp; rfl

set_option maxHeartbeats 1600000 in
theorem tail2_v5 (W : Valuation τ sig (Elt Ideal)) :
    after (hostOps1_1 (F := Ideal)) W (Proc.devRef .tc main_v5) = W (Proc.devRef .tc main_v5) := by
  simp only [hostOps1_1]; after_results_simp

set_option maxHeartbeats 1600000 in
theorem tail3_v23 (W : Valuation τ sig (Elt Ideal)) :
    after (hostOps1_2 (F := Ideal)) W (Proc.devRef .tc main_v23)
      = kerLoss (W (Proc.devRef .tc main_v7)) (W (Proc.devRef .tc main_v5)) := by
  simp only [hostOps1_2]; after_results_simp; rfl

/-! ## Against the shared tail -/

/-- The kernel program's chain, over the labels broadcast to a column, is the shared tail. -/
theorem kerLoss_eq (cos : Vec Ideal S1024x100000 .f32) (lsum : Vec Ideal S1024 .f32) (label : IVec S1024 32) :
    kerLoss (kerTgt cos (broadcastInDim S1024x1 ![0] bcast_S1024_S1024x1_0 label)) lsum = lossTail cos lsum label := by
  unfold kerLoss kerNumer kerT kerTgt kerGidx lossTail numer tgt gidx
  rfl

/-! ## The composition -/

/-- The kernel program's loss buffer after the host operations that follow its region: the shared tail of the
    cosine array, the sum of the two partial-sum planes and the labels. -/
theorem ker_loss (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1, hostOps1_1, hostOps1_2] c main_v23
      = lossTail ((dats 0 c).arrAt 2 cfg0.N) (kerLsum ((dats 0 c).arrAt 3 cfg0.N)) (m ((c.tc : Thread nD τ).loc main_arg2)) := by
  have e2 : Pipeline.withArrays (cfgs 0).spec c (V0 m c) (fun w => (dats 0 c).arrAt w (cfgs 0).N) (Proc.devRef .tc main_v0_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v0_1)
      = (dats 0 c).arrAt 3 cfg0.N := Pipeline.withArrays_arr spec0 launch0.win.arr_inj c _ _ 3
  have el : Pipeline.withArrays (cfgs 0).spec c (V0 m c) (fun w => (dats 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  rw [show ([hostOps1, hostOps1_1, hostOps1_2] : List (List (HloOp τ sig (Elt Ideal)))).flatten = hostOps1 ++ (hostOps1_1 ++ hostOps1_2) from by
    simp only [List.flatten_cons, List.flatten_nil, List.append_nil]]
  rw [after_append, after_append, tail3_v23, tail2_v7, tail2_v5, tail1_v0_0, tail1_v6, tail1_v5, e2, e3, el]
  exact kerLoss_eq _ _ _

end Ker

end Cert.Tail

end
-- ==== Proof.lean ====
/-
  The certificate of the margin-softmax head: a Pallas kernel that normalises the rows of x and the columns of W,
  multiplies them tile by tile, clips, and sums exp(30·cos) into two partial sums, against the jnp reference.

  Over the extended reals both programs compute cos = clip(xn · wn, -1, 1) with xn, wn the rows of x and the columns
  of W divided by their Euclidean norms clamped below. The reference clamps the norm by Dc, the f32 nearest 1e-12, and
  divides; the kernel clamps the sum of squares by the constant NAMED Dc² and multiplies by the reciprocal square
  root: for real entries the two are one function (√ is monotone and √(Dc²) = Dc). The kernel's two partial sums of
  exp(30·cos), 49 column tiles each with the columns past the matrix masked to zero, add up to the reference's row
  sum, a regrouping of a finite sum. The loss is the same host chain of (cos, row sums, labels) in both programs.

  The frames: the word-level kernel's with every window's contents forgotten; the idealized kernel's from the run
  that names its values; the reference's from its run.
-/
import proofs.«402459_j22746146800347_3_alg».proof.Defs
import proofs.«402459_j22746146800347_3_alg».proof.Proof.Gen.Kernel
import proofs.«402459_j22746146800347_3_alg».proof.Proof.Gen.KernelIdeal
import proofs.«402459_j22746146800347_3_alg».proof.Proof.Gen.ReferenceIdeal
import proofs.«402459_j22746146800347_3_alg».proof.Proof.Gen.Pre_finite_inputs
import proofs.«402459_j22746146800347_3_alg».proof.Proof.Gen.ReferenceIdeal.Run
import proofs.«402459_j22746146800347_3_alg».proof.Proof.Gen.ReferenceIdeal.Read
import proofs.«402459_j22746146800347_3_alg».proof.Proof.K.Frame
import proofs.«402459_j22746146800347_3_alg».proof.Proof.KI.Body
import proofs.«402459_j22746146800347_3_alg».proof.Proof.KI.Indep
import proofs.«402459_j22746146800347_3_alg».proof.Proof.KI.Final
import proofs.«402459_j22746146800347_3_alg».proof.Proof.Algebra
import proofs.«402459_j22746146800347_3_alg».proof.Proof.RefValue
import proofs.«402459_j22746146800347_3_alg».proof.Proof.Tail
import proofs.«402459_j22746146800347_3_alg».proof.Proof.TailKer
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel (hKernel := Cert.Kernel.Gen.facts) (hPre_finite_inputs := Cert.Pre_finite_inputs.Gen.facts) := fun m ρ _ => Cert.Kernel.Body.frame (F := Bits) m ρ

theorem frame_ki : Cert.frame_KernelIdeal (hKernelIdeal := Cert.KernelIdeal.Gen.facts) (hPre_finite_inputs := Cert.Pre_finite_inputs.Gen.facts) := fun m ρ _ =>
  Cert.KernelIdeal.Body.frame (F := Ideal) m ρ (Cert.KernelIdeal.Body.indep97 m)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-! ## The named constant -/

/-- The ledger's two entries are one: the certificate's table gives the clamp's name the value Dc². -/
theorem preserves : Cert.preserves_Kernel_KernelIdeal :=
  ⟨IdealRules.named_const.statement Cert.KernelIdeal.κ "fold_c_5316911940649_5316911983139663491615228241121378304" .f32 0x179ABE15#32
      ((5316911940649 / 5316911983139663491615228241121378304 : ℝ) : EReal) rfl,
   IdealRules.named_const.statement Cert.KernelIdeal.κ "fold_c_5316911940649_5316911983139663491615228241121378304" .f32 0x179ABE15#32
      ((5316911940649 / 5316911983139663491615228241121378304 : ℝ) : EReal) rfl⟩

/-! ## The two programs' values -/

section KernelSide
open Cert.KernelIdeal Cert.KernelIdeal.Gen Cert.KernelIdeal.Body

/-- The cosine matrix of the kernel's arguments, and the sum of its two partial sums, row by row. -/
def cosArr (m : (ℓ : Loc nD τ sig) → Buf (Elt Ideal) ℓ) (c : Dev nD) : Vec Ideal S1024x100000 .f32 :=
  fun i => Cert.Spec.cosK (V m c main_arg0) (V m c main_arg1) (i 0) (i 1)
def lsumArr (m : (ℓ : Loc nD τ sig) → Buf (Elt Ideal) ℓ) (c : Dev nD) : Vec Ideal S1024 .f32 :=
  fun i => Cert.Spec.partK (V m c main_arg0) (V m c main_arg1) 0 (i 0) + Cert.Spec.partK (V m c main_arg0) (V m c main_arg1) 1 (i 0)

/-- The idealized kernel's run with both results named: the cosine matrix, and the shared tail of it, of the two
    partial sums added, and of the labels. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = cosArr m c
      ∧ r.2.mem ((c.tc : Thread nD τ).loc main_v23) = Cert.Tail.lossTail (cosArr m c) (lsumArr m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_⟩) (run_main (F := Ideal) m ρ (indep97 m))
  · exact ((h c).1 2).trans (final_cos m c)
  · refine ((h c).2 main_v23 (Pipeline.mem_restRefs_of main_v23 (by decide) (by decide))).trans ?_
    refine (Cert.Tail.ker_loss m (dats m) c).trans ?_
    rw [final_cos m c]
    refine congrArg (fun l => Cert.Tail.lossTail (cosArr m c) l (m ((c.tc : Thread nD τ).loc main_arg2))) ?_
    funext i
    rw [Cert.Tail.kerLsum_apply, final_part m c 0 (i 0), final_part m c 1 (i 0)]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end KernelSide

section RefSide
open Cert.ReferenceIdeal Cert.ReferenceIdeal.Gen

/-- The reference's cosine matrix, index by index. -/
theorem refCos_eq (m : (ℓ : Loc nD τ sig) → Buf (Elt Ideal) ℓ) (c : Dev nD) :
    Cert.Tail.refCos m c = (fun i => Cert.Spec.cosR (m ((c.tc : Thread nD τ).loc main_arg0)) (m ((c.tc : Thread nD τ).loc main_arg1)) (i 0) (i 1)) := by
  unfold Cert.Tail.refCos
  exact Cert.ReferenceIdeal.RefValue.ref_cos m c

/-- The reference's row sums of exp(30·cos), row by row. -/
theorem refLsum_eq (cosv : Vec Ideal S1024x100000 .f32) :
    Cert.Tail.refLsum cosv = (fun i => Cert.Spec.rowExpSum (fun b c => cosv (ix2 b c)) (i 0)) := by
  funext i
  obtain ⟨b, rfl⟩ : ∃ b : Fin 1024, i = ix1 b := ⟨i 0, eq_ix1 i⟩
  unfold Cert.Tail.refLsum
  exact Cert.ReferenceIdeal.RefValue.ref_rowsum cosv b

end RefSide

/-! ## The claims -/

/-- From memories agreeing on the arguments, with real entries, the two programs end at the same cosine matrix —
    the clamped normalisations are one function by the named constant's value — and at the same loss: the kernel's
    two partial sums add up to the reference's row sums, and the rest is one chain. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => cosArr m c, fun c => Cert.Tail.lossTail (cosArr m c) (lsumArr m c) (m ((c.tc : Thread Cert.KernelIdeal.nD Cert.KernelIdeal.τ).loc Cert.KernelIdeal.main_arg2)),
    kernel_run m ρ, ?_⟩
  refine (θ_run Cert.ReferenceIdeal.defs _ _).mono (fun r h c => ?_) (Cert.ReferenceIdeal.Value.run (F := Ideal) m' ρ')
  obtain ⟨h9, h31, ha0, ha1, ha2⟩ := h c
  obtain ⟨hx, hW⟩ := Cert.ReferenceIdeal.RefValue.finite_of_pre _ _ _ (hpre c)
  have hcos : Cert.Tail.refCos m' c = cosArr m c := by
    rw [refCos_eq, (hagree c).1, (hagree c).2.1]
    funext i
    exact (Cert.Spec.cosK_eq_cosR hx hW (i 0) (i 1)).symm
  refine ⟨h9.trans hcos, h31.trans ?_, ha0, ha1, ha2⟩
  rw [Cert.Tail.ref_loss, hcos, (hagree c).2.2, refLsum_eq]
  refine congrArg (fun l => Cert.Tail.lossTail (cosArr m c) l _) ?_
  funext i
  exact (Cert.Spec.part_sum _ _ (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
